-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048 : Shape := ⟨2, ![16, 2048]⟩
abbrev S2048 : Shape := ⟨1, ![2048]⟩
abbrev S_ : Shape := ⟨0, ![]⟩

class Facts : Prop where
  bcast_S_S16x2048 : S_.BroadcastsInDim S16x2048 (![] : Fin 0 → Fin S16x2048.rank)
  reducesTo_S16x2048_S_d0_1 : S16x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16x2048 .f32) (main_arg1 : IVec S16x2048 32) (main_arg2 : FVec F S2048 .f32) : IVec S_ 1 :=
  let main_v0 : FVec F S16x2048 .f32 := Host.absf main_arg0
  let main_cst : FVec F S_ .f32 := constant S_ .f32 0x7F800000#32
  let main_v1 : FVec F S16x2048 .f32 := broadcastInDim S16x2048 ![] bcast_S_S16x2048 main_cst
  let main_v2 : IVec S16x2048 1 := cmpf .olt main_v0 main_v1
  let main_c : IVec S_ 1 := constantI S_ 1 1#1
  let main_v3 : IVec S_ 1 := (fun x v => Host.reduce IntOp.andi x v reducesTo_S16x2048_S_d0_1 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Kernel.lean ====
abbrev S16x2048 : Shape := ⟨2, ![16, 2048]⟩
abbrev S2048 : Shape := ⟨1, ![2048]⟩
abbrev S2048x1 : Shape := ⟨2, ![2048, 1]⟩
abbrev S1x2048 : Shape := ⟨2, ![1, 2048]⟩
abbrev S16x1 : Shape := ⟨2, ![16, 1]⟩
abbrev S8x256 : Shape := ⟨2, ![8, 256]⟩
abbrev S256x1 : Shape := ⟨2, ![256, 1]⟩
abbrev S1x256 : Shape := ⟨2, ![1, 256]⟩
abbrev S8x1 : Shape := ⟨2, ![8, 1]⟩
abbrev S256x256 : Shape := ⟨2, ![256, 256]⟩
abbrev S8x256x1 : Shape := ⟨3, ![8, 256, 1]⟩
abbrev S8x1x256 : Shape := ⟨3, ![8, 1, 256]⟩
abbrev S8x256x256 : Shape := ⟨3, ![8, 256, 256]⟩
abbrev S1x256x256 : Shape := ⟨3, ![1, 256, 256]⟩
abbrev S8 : Shape := ⟨1, ![8]⟩
abbrev S_ : Shape := ⟨0, ![]⟩

abbrev nBuf : Space → Nat
  | .hbm => 10
  | .vmem => 14
  | .smem => 0
  | _ => 0

abbrev bufTy : (tb : Table) → Fin (tcTables nBuf tb) → BufTy
  | .hbm, ⟨0, _⟩ => ⟨S16x2048, .f32⟩
  | .hbm, ⟨1, _⟩ => ⟨S16x2048, .i32⟩
  | .hbm, ⟨2, _⟩ => ⟨S2048, .f32⟩
  | .hbm, ⟨3, _⟩ => ⟨S2048x1, .f32⟩
  | .hbm, ⟨4, _⟩ => ⟨S1x2048, .f32⟩
  | .hbm, ⟨5, _⟩ => ⟨S16x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .i32⟩
  | .local _ .vmem, ⟨5, _⟩ => ⟨S8x256, .i32⟩
  | .local _ .vmem, ⟨6, _⟩ => ⟨S8x256, .i32⟩
  | .local _ .vmem, ⟨7, _⟩ => ⟨S8x256, .i32⟩
  | .local _ .vmem, ⟨8, _⟩ => ⟨S256x1, .f32⟩
  | .local _ .vmem, ⟨9, _⟩ => ⟨S256x1, .f32⟩
  | .local _ .vmem, ⟨10, _⟩ => ⟨S1x256, .f32⟩
  | .local _ .vmem, ⟨11, _⟩ => ⟨S1x256, .f32⟩
  | .local _ .vmem, ⟨12, _⟩ => ⟨S8x1, .f32⟩
  | .local _ .vmem, ⟨13, _⟩ => ⟨S8x1, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S8x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S8x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

class Facts₀ : Prop where
  shapeCasts_S2048_S2048x1 : S2048.ShapeCasts S2048x1
  shapeCasts_S2048_S1x2048 : S2048.ShapeCasts S1x2048
  inb_S8x1_S8x1_0_0 : ∀ a, (![0, 0] : Fin 2 → Nat) a + S8x1.size a ≤ S8x1.size a
  h_S8x1 : 0 < S8x1.numel
  inb_S8x256_S8x256_0_0 : ∀ a, (![0, 0] : Fin 2 → Nat) a + S8x256.size a ≤ S8x256.size a
  h_S8x256 : 0 < S8x256.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S256x1_S256x256 : S256x1.Broadcasts S256x256
  broadcasts_S1x256_S256x256 : S1x256.Broadcasts S256x256
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  shapeCasts_S256x256_S1x256x256 : S256x256.ShapeCasts S1x256x256
  broadcasts_S1x256x256_S8x256x256 : S1x256x256.Broadcasts S8x256x256
  reduces_S8x256x256_S8x256 : S8x256x256.Reduces [2] S8x256
  reduces_S8x256_S8 : S8x256.Reduces [1] S8
  shapeCasts_S8_S8x1 : S8.ShapeCasts S8x1
  shapeCasts_S8x1_S8x1 : S8x1.ShapeCasts S8x1
  reducesTo_S16x1_S_d0_1 : S16x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S16x2048.size a
  hwx0_0 : ∀ i : grid0.Coords, EltTy.bits .f32 = 32 ∨ (Rect.block (s := S16x2048) S8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S16x2048.size a
  hwx0_1 : ∀ i : grid0.Coords, EltTy.bits .f32 = 32 ∨ (Rect.block (s := S16x2048) S8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S16x2048.size a
  hwx0_2 : ∀ i : grid0.Coords, EltTy.bits .i32 = 32 ∨ (Rect.block (s := S16x2048) S8x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S16x2048.size a
  hwx0_3 : ∀ i : grid0.Coords, EltTy.bits .i32 = 32 ∨ (Rect.block (s := S16x2048) S8x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S2048x1.size a
  hwx0_4 : ∀ i : grid0.Coords, EltTy.bits .f32 = 32 ∨ (Rect.block (s := S2048x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x1.size a ≤ S16x1.size a
  hwx0_6 : ∀ i : grid0.Coords, EltTy.bits .f32 = 32 ∨ (Rect.block (s := S16x1) S8x1.size (cc0_transform_6 i) (hinb0_6 i)).WholeWords (EltTy.packing .f32)

variable [Facts₀]

abbrev win0_0 : Pipeline.Window sig grid0 :=
  Pipeline.Window.ofSpec (Memref.whole main_arg0) S8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S8x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S8x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x2048 : Shape := ⟨2, ![16, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S16x2048x1 : Shape := ⟨3, ![16, 2048, 1]⟩
abbrev S16x1x2048 : Shape := ⟨3, ![16, 1, 2048]⟩
abbrev S16x2048x2048 : Shape := ⟨3, ![16, 2048, 2048]⟩
abbrev S1x2048x2048 : Shape := ⟨3, ![1, 2048, 2048]⟩

abbrev nBuf : Space → Nat
  | .hbm => 63
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x2048, .i32⟩
  | .hbm, ⟨2, _⟩ => ⟨S2048, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S16x2048, .f32⟩
  | .hbm, ⟨15, _⟩ => ⟨S2048x1, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x1, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S16x2048x1, .f32⟩
  | .hbm, ⟨27, _⟩ => ⟨S16x1x2048, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S16x2048x1, .f32⟩
  | .hbm, ⟨32, _⟩ => ⟨S16x1x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S16x2048x1, .f32⟩
  | .hbm, ⟨37, _⟩ => ⟨S16x1x2048, .f32⟩
  | .hbm, ⟨38, _⟩ => ⟨S16x2048x2048, .f32⟩
  | .hbm, ⟨39, _⟩ => ⟨S16x2048x2048, .f32⟩
  | .hbm, ⟨40, _⟩ => ⟨S16x2048x2048, .f32⟩
  | .hbm, ⟨41, _⟩ => ⟨S1x2048x2048, .f32⟩
  | .hbm, ⟨42, _⟩ => ⟨S16x2048x2048, .f32⟩
  | .hbm, ⟨43, _⟩ => ⟨S16x2048x2048, .f32⟩
  | .hbm, ⟨44, _⟩ => ⟨S_, .f32⟩
  | .hbm, ⟨45, _⟩ => ⟨S16x2048x2048, .f32⟩
  | .hbm, ⟨46, _⟩ => ⟨S16x2048x2048, .f32⟩
  | .hbm, ⟨47, _⟩ => ⟨S16x2048x2048, .f32⟩
  | .hbm, ⟨48, _⟩ => ⟨S_, .f32⟩
  | .hbm, ⟨49, _⟩ => ⟨S16x2048x2048, .f32⟩
  | .hbm, ⟨50, _⟩ => ⟨S16x2048x2048, .f32⟩
  | .hbm, ⟨51, _⟩ => ⟨S_, .f32⟩
  | .hbm, ⟨52, _⟩ => ⟨S16x2048x2048, .f32⟩
  | .hbm, ⟨53, _⟩ => ⟨S16x2048x2048, .f32⟩
  | .hbm, ⟨54, _⟩ => ⟨S_, .f32⟩
  | .hbm, ⟨55, _⟩ => ⟨S16x2048x2048, .f32⟩
  | .hbm, ⟨56, _⟩ => ⟨S16x2048x2048, .f32⟩
  | .hbm, ⟨57, _⟩ => ⟨S16x2048x2048, .f32⟩
  | .hbm, ⟨58, _⟩ => ⟨S16x2048x2048, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_call0_cst : Ref sig .tc := ⟨.hbm, 44, rfl⟩
abbrev main_call0_v0 : Ref sig .tc := ⟨.hbm, 45, rfl⟩
abbrev main_v38 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_v41 : Ref sig .tc := ⟨.hbm, 50, rfl⟩
abbrev main_call1_cst : Ref sig .tc := ⟨.hbm, 51, rfl⟩
abbrev main_call1_v0 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩

abbrev nD : Nat := 1
abbrev τ : Topo := Topo.v7x

variable {F : FTy → Type} [FloatOps F]

class Facts₀ : Prop where
  bcast_S_S16x2048 : S_.BroadcastsInDim S16x2048 (![] : Fin 0 → Fin S16x2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel

variable [Facts₀]

class Facts : Prop extends Facts₀ where

variable [Facts]
-- ==== Proof.K.Base.lean ====
/-
  The pairwise ranking sum, kernel side: what every later module is stated over.

  The grid is 2 x 8 x 8: point t = 64*bb + 8*i + j handles the eight batch rows 8*bb .. 8*bb+7, the
  "row" tile i (256 indices a) and the "column" tile j (256 indices c). Its body adds to an 8x1
  accumulator the tile's double sum over (a, c) of the pairwise term; the accumulator is cleared at
  i = j = 0, i.e. at the points t with t % 64 = 0, and is written back to the 16x1 result after the
  last point of each bb. Here: the contents of the core's buffers when the region is entered, each
  window's block of its array, one point's update of the accumulator as a pure function of the six
  input blocks, the accumulator after each point by recursion on the point, and the closed form of
  the body's one branch condition.
-/
import proofs.«124505_j43963285241920_1_alg».proof.Proof.Gen.Kernel.Launch
import proofs.«124505_j43963285241920_1_alg».proof.Proof.Gen.Kernel.Skeleton
import proofs.«124505_j43963285241920_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Pairwise

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, -/
abbrev W0 (c : Dev nD) : Valuation τ sig (Elt F) := fun b => m ((c : Dev nD), b)
/-- after the two reshapes of the frequency vector (to a column and to a row), -/
abbrev W1 (c : Dev nD) : Valuation τ sig (Elt F) := StableHlo.after hostOps0 (W0 m c)
/-- and the same read at the TensorCore's references: what the region finds. -/
abbrev V (c : Dev nD) (b : Ref sig .tc) : Buf (Elt F) ((c : Thread nD τ).loc b) := W1 m c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## One point's update of the accumulator -/

/-- The accumulator after a point, from the accumulator before it and the point's six input blocks:
    the scores' row and column blocks, the labels' row and column blocks, the frequencies' column and
    row blocks. The tile's double sum of the pairwise term is added to it. -/
def step (acc : Vec F S8x1 .f32) (xi xj : Vec F S8x256 .f32) (ti tj : Vec F S8x256 .i32)
    (fc : Vec F S256x1 .f32) (fr : Vec F S1x256 .f32) : Vec F S8x1 .f32 :=
  k0_pay1 (k0_pay5 fc fr) (k0_pay6 xi xj) (k0_pay7 ti tj) (k0_pay8 ti) (k0_pay9 tj) acc

/-- The accumulator cleared: all zeros. -/
abbrev acc0 : Vec F S8x1 .f32 := k0_pay2 (F := F)

/-- The update at point `t`, on that point's blocks. -/
def stepAt (c : Dev nD) (t : Fin cfg0.N) (acc : Vec F S8x1 .f32) : Vec F S8x1 .f32 :=
  step acc (iblk m c 0 t) (iblk m c 1 t) (iblk m c 2 t) (iblk m c 3 t) (iblk m c 4 t) (iblk m c 5 t)

/-- THE ACCUMULATION: what the result's staging buffer holds after the body at position `n` —
    cleared first at the positions divisible by 64, else continuing from the position before. -/
def accAt (c : Dev nD) : (n : ℕ) → n < cfg0.N → Vec F S8x1 .f32
  | 0, hn => stepAt m c ⟨0, hn⟩ acc0
  | n + 1, hn =>
    if (n + 1) % 64 = 0 then stepAt m c ⟨n + 1, hn⟩ acc0
    else stepAt m c ⟨n + 1, hn⟩ (accAt c n (Nat.lt_of_succ_lt hn))

theorem accAt_reset (c : Dev nD) (t : Fin cfg0.N) (h0 : t.val % 64 = 0) :
    accAt m c t.val t.isLt = stepAt m c t acc0 := by
  obtain ⟨n, hn⟩ := t
  cases n with
  | zero => rfl
  | succ n => exact (if_pos h0).trans rfl

theorem accAt_cont (c : Dev nD) (t : Fin cfg0.N) (h0 : ¬ t.val % 64 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The body's branch -/

/-- The body's one condition, from the grid coordinates: both tile coordinates are zero. -/
abbrev cond (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the first point of each batch block — decided over the grid. -/
theorem hcond : ∀ t : Fin cfg0.N, cond (grid0.coords t) ↔ t.val % 64 = 0 :=
  (by decide +kernel : ∀ t : Fin grid0.N, cond (grid0.coords t) ↔ t.val % 64 = 0)

/-! ## The staging memrefs the body is called with -/

abbrev ms0 (t : Fin cfg0.N) : Memref sig .tc .vmem S8x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x256 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x1 .f32 := win0_6.stage (cfg0.slots t 6)
abbrev hs6 (t : Fin cfg0.N) : (ms6 t).IsWhole := hstage0_6 ((cfg0.slots t 6).cast nbuf0_6)

end Cert.Kernel.Pairwise

end
-- ==== Proof.K.RunReset.lean ====
/-
  The body at a point that clears the accumulator (both tile coordinates zero): the branch is taken, the
  result's staging buffer is overwritten with zeros, read back, and the tile's sum added.
-/
import proofs.«124505_j43963285241920_1_alg».proof.Proof.K.Base

set_option maxRecDepth 16384

noncomputable section

namespace Cert.Kernel.Pairwise

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result's staging memref (last first), with the proof that on
    whole staging memrefs — the six inputs' at their contents, the result's as stated — the body runs to the
    continuation holding the inputs' as they were and the result's with those pieces written. -/
noncomputable def runReset (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x256 .i32) (harg5 : arg5.IsWhole) (arg6 : Memref sig .tc .vmem S8x256 .i32) (harg6 : arg6.IsWhole) (arg7 : Memref sig .tc .vmem S256x1 .f32) (harg7 : arg7.IsWhole) (arg8 : Memref sig .tc .vmem S1x256 .f32) (harg8 : arg8.IsWhole) (arg9 : Memref sig .tc .vmem S8x1 .f32) (harg9 : arg9.IsWhole) (hc : cond i)
    (x0 x1 : Vec F S8x256 .f32) (x2 x3 : Vec F S8x256 .i32) (x4 : Vec F S256x1 .f32) (x5 : Vec F S1x256 .f32) :
    { L6 : List (View.Piece (Elt F) S8x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6)) -∗ K ⟨⟩))
          ⊢ wp frame (wpE (defs₀ (F := F)) Variants.none c none) E (cc0__ranking_kernel i arg3 harg3 arg4 harg4 arg5 harg5 arg6 harg6 arg7 harg7 arg8 harg8 arg9 harg9) K } := by
  refine ⟨?_, fun E K => ?run⟩
  case run =>
    simp only [cc0__ranking_kernel_eq_skeleton]; unfold cc0__ranking_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact H6

end Cert.Kernel.Pairwise

end
-- ==== Proof.K.RunCont.lean ====
/-
  The body at a point that continues the accumulation: the branch is not taken, the result's staging
  buffer is read as the point before left it, and the tile's sum added.
-/
import proofs.«124505_j43963285241920_1_alg».proof.Proof.K.RunReset

set_option maxRecDepth 16384

noncomputable section

namespace Cert.Kernel.Pairwise

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result's staging memref (last first), with the proof that on
    whole staging memrefs — the six inputs' at their contents, the result's as stated — the body runs to the
    continuation holding the inputs' as they were and the result's with those pieces written. -/
noncomputable def runCont (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x256 .i32) (harg5 : arg5.IsWhole) (arg6 : Memref sig .tc .vmem S8x256 .i32) (harg6 : arg6.IsWhole) (arg7 : Memref sig .tc .vmem S256x1 .f32) (harg7 : arg7.IsWhole) (arg8 : Memref sig .tc .vmem S1x256 .f32) (harg8 : arg8.IsWhole) (arg9 : Memref sig .tc .vmem S8x1 .f32) (harg9 : arg9.IsWhole) (hc : ¬ cond i)
    (x0 x1 : Vec F S8x256 .f32) (x2 x3 : Vec F S8x256 .i32) (x4 : Vec F S256x1 .f32) (x5 : Vec F S1x256 .f32) (xo : Vec F S8x1 .f32) :
    { L6 : List (View.Piece (Elt F) S8x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6)) -∗ K ⟨⟩))
          ⊢ wp frame (wpE (defs₀ (F := F)) Variants.none c none) E (cc0__ranking_kernel i arg3 harg3 arg4 harg4 arg5 harg5 arg6 harg6 arg7 harg7 arg8 harg8 arg9 harg9) K } := by
  refine ⟨?_, fun E K => ?run⟩
  case run =>
    simp only [cc0__ranking_kernel_eq_skeleton]; unfold cc0__ranking_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact H6

end Cert.Kernel.Pairwise

end
-- ==== Proof.K.Data.lean ====
/-
  The proof data of the one pipeline and the body's obligation at every point.

  After the body at point t each of the six input windows' staging buffers still holds its block of its
  array, and the result's holds the accumulator `accAt` at t. The scores' array is read through two
  windows (row tile and column tile), and so is the labels' array: each of the two windows of such an
  array holds half of the array's share, the frequencies' two reshaped copies and the result are held
  whole.
-/
import proofs.«124505_j43963285241920_1_alg».proof.Proof.K.RunCont
import Idealize.ShloMosaic.Lib.Pipeline.Value

set_option maxRecDepth 16384

noncomputable section

namespace Cert.Kernel.Pairwise

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body's stores leave, read back -/

theorem off00 : (![0, 0] : Fin 2 → ℕ) = fun _ => 0 := by funext a; fin_cases a <;> rfl

/-- The clearing case: zeros are stored over the whole 8x1 buffer, read back, and the tile's sum added; the last
    store covers the buffer, so it reads back as one update of the cleared accumulator. -/
theorem readback_reset (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x256 .i32) (harg5 : arg5.IsWhole) (arg6 : Memref sig .tc .vmem S8x256 .i32) (harg6 : arg6.IsWhole) (arg7 : Memref sig .tc .vmem S256x1 .f32) (harg7 : arg7.IsWhole) (arg8 : Memref sig .tc .vmem S1x256 .f32) (harg8 : arg8.IsWhole) (arg9 : Memref sig .tc .vmem S8x1 .f32) (harg9 : arg9.IsWhole) (hc : cond i)
    (x0 x1 : Vec F S8x256 .f32) (x2 x3 : Vec F S8x256 .i32) (x4 : Vec F S256x1 .f32) (x5 : Vec F S1x256 .f32) (f : Buf (Elt F) (arg9.view.loc (c : Thread nD τ))) :
    arg9.view.read (Elt F) (arg9.view.writes (Elt F) f (runReset (F := F) c i arg3 harg3 arg4 harg4 arg5 harg5 arg6 harg6 arg7 harg7 arg8 harg8 arg9 harg9 hc x0 x1 x2 x3 x4 x5).1)
      = step acc0 x0 x1 x2 x3 x4 x5 := by
  rw [View.read_writes_eq_canon _ _ _ (View.cover_of_tiledL _ S8x1.size (by sl_kernel_rfl))]
  unfold runReset; dsimp only
  sl_unfold_words
  rw [View.canon_cons_unit_zero (S := S8x1) off00, View.readCov_unit_zero (S := S8x1) _ off00]
  simp only [View.readAt_eq_ld, harg3.read_unread, harg4.read_unread, harg5.read_unread, harg6.read_unread, harg7.read_unread, harg8.read_unread,
    View.ld_unit_zero (S := S8x256) off00, View.ld_unit_zero (S := S256x1) off00, View.ld_unit_zero (S := S1x256) off00]
  rfl

/-- The continuing case: one store over the whole buffer, of the update of what the buffer held. -/
theorem readback_cont (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x256 .i32) (harg5 : arg5.IsWhole) (arg6 : Memref sig .tc .vmem S8x256 .i32) (harg6 : arg6.IsWhole) (arg7 : Memref sig .tc .vmem S256x1 .f32) (harg7 : arg7.IsWhole) (arg8 : Memref sig .tc .vmem S1x256 .f32) (harg8 : arg8.IsWhole) (arg9 : Memref sig .tc .vmem S8x1 .f32) (harg9 : arg9.IsWhole) (hc : ¬ cond i)
    (x0 x1 : Vec F S8x256 .f32) (x2 x3 : Vec F S8x256 .i32) (x4 : Vec F S256x1 .f32) (x5 : Vec F S1x256 .f32) (xo : Vec F S8x1 .f32) (f : Buf (Elt F) (arg9.view.loc (c : Thread nD τ))) :
    arg9.view.read (Elt F) (arg9.view.writes (Elt F) f (runCont (F := F) c i arg3 harg3 arg4 harg4 arg5 harg5 arg6 harg6 arg7 harg7 arg8 harg8 arg9 harg9 hc x0 x1 x2 x3 x4 x5 xo).1)
      = step xo x0 x1 x2 x3 x4 x5 := by
  rw [View.read_writes_eq_canon _ _ _ (View.cover_of_tiledL _ S8x1.size (by sl_kernel_rfl))]
  unfold runCont; dsimp only
  sl_unfold_words
  rw [View.canon_unit_zero (S := S8x1) off00]
  simp only [View.readAt_eq_ld, harg3.read_unread, harg4.read_unread, harg5.read_unread, harg6.read_unread, harg7.read_unread, harg8.read_unread, harg9.read_unread,
    View.ld_unit_zero (S := S8x256) off00, View.ld_unit_zero (S := S256x1) off00, View.ld_unit_zero (S := S1x256) off00, View.ld_unit_zero (S := S8x1) off00]
  rfl

/-! ## The pipeline's proof data -/

/-- On core `c`: the arrays as the region finds them; after the body at point `t` each input's buffer at its
    block and the result's at the accumulator; the invariant between points is the scoped rest and the generator
    register, untouched; nothing owed; the two arrays read twice are held half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accAt m c t.val t.isLt
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = accAt m c t.val t.isLt := by dsimp only [dats]

/-- An input window's staging buffer holds its block at every point, fetched there or not: where it is not
    fetched its block index has not moved since the point before, and the body left the block in place. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-- At a point that continues the accumulation the result's staging buffer holds what the body left at the point
    before: the point is not the first, and the buffer is written back only after the last point of a batch
    block, which the point before is not. -/
theorem before6_cont (c : Dev nD) (t : Fin cfg0.N) (h0 : ¬ t.val % 64 = 0) (d) :
    (dats m 0 c).before 6 t d = accAt m c (t.val - 1) (Nat.lt_of_le_of_lt (Nat.sub_le _ _) t.isLt) := by
  have hN : t.val < 128 := lt_of_lt_of_eq t.isLt (show cfg0.N = 128 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
/-- The body at any point: the inputs' buffers hold their blocks; the closed form of the condition says whether
    the point clears the accumulator; where it does not, the result's buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  by_cases h0 : t.val % 64 = 0
  · rw [accAt_reset m c t h0]
    unfold stepAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runReset c (grid0.coords t) _ _ _ _ _ _ _ _ _ _ _ _ _ _ ((hcond t).mpr h0) (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact readback_reset c _ _ _ _ _ _ _ _ _ _ _ _ _ _ _ _ _ _ _ _ _ _ _
  · rw [accAt_cont m c t h0]
    simp only [before6_cont m c t h0]
    unfold stepAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runCont c (grid0.coords t) _ _ _ _ _ _ _ _ _ _ _ _ _ _ (fun h => h0 ((hcond t).mp h)) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact readback_cont c _ _ _ _ _ _ _ _ _ _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Pairwise

end
-- ==== Proof.K.Exit.lean ====
/-
  The buffers after the region and after the host operations that follow it.

  The region changes one unscoped buffer, the 16x1 result; the inputs' arrays end as they were entered. The
  four host operations after it sum the result's sixteen entries and divide by sixteen.
-/
import proofs.«124505_j43963285241920_1_alg».proof.Proof.K.Data

set_option maxRecDepth 16384

noncomputable section

namespace Cert.Kernel.Pairwise

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array as the pipeline leaves it: the write-backs of the two batch blocks folded. -/
def outArr (c : Dev nD) : Vec F S16x1 .f32 := (dats m 0 c).arrAt 6 cfg0.N

/-- Core `c`'s buffers at the region's exit: the result at what the pipeline leaves, every other buffer as
    entered; -/
def W2 (c : Dev nD) : Valuation τ sig (Elt F) := Function.update (W1 m c) main_v2 (outArr m c)
/-- and after the four host operations that follow. -/
abbrev W3 (c : Dev nD) : Valuation τ sig (Elt F) := StableHlo.after hostOps1 (W2 m c)

/-- The program's result. -/
abbrev resultOf (c : Dev nD) : Vec F S_ .f32 := W3 m c main_v4

end Cert.Kernel.Pairwise

end
-- ==== Proof.K.Launch.lean ====
/-
  The run of the whole program: the two reshapes, the kernel region, the sum and the division.

  Between two items of the program the core holds every unscoped buffer whole at a known valuation. Entering
  the region, the buffers behind the seven windows' arrays are dealt to the windows: the scores' array and the
  labels' array are each read through two windows, so each is split into two half shares; the other three are
  held whole. Leaving it, the halves are joined again; only the 16x1 result has changed. At the end every
  unscoped buffer is read against the final memory: the program's result, and the three arguments, which no
  item writes.
-/
import proofs.«124505_j43963285241920_1_alg».proof.Proof.K.Exit
import Idealize.ShloMosaic.Lib.Pipeline.Regions
import Idealize.ShloMosaic.Lib.Pipeline.RegionsLoop

set_option maxRecDepth 16384

noncomputable section

namespace Cert.Kernel.Pairwise

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations: what no item changes -/

/-- The same as `W2`, read at the TensorCore's references. -/
abbrev V2 (c : Dev nD) (b : Ref sig .tc) : Buf (Elt F) ((c : Thread nD τ).loc b) := W2 m c b

theorem W2_same (c : Dev nD) : W2 m c main_v2 = outArr m c := by
  unfold W2; exact Function.update_self ..

theorem W2_of_ne (c : Dev nD) (b : Ref sig .tc) (h : b ≠ main_v2) : W2 m c b = W1 m c b := by
  unfold W2
  exact Function.update_of_ne (StableHlo.devRef_ne_of_ne h : (Proc.devRef .tc b : DevRef τ sig) ≠ Proc.devRef .tc main_v2) _ _

/-- The reshapes write only the two copies of the frequencies. -/
theorem W1_of_not_written (c : Dev nD) (b : Ref sig .tc) (h0 : b ≠ main_v0) (h1 : b ≠ main_v1) : W1 m c b = W0 m c b :=
  StableHlo.after_of_forall_not_mem (b := Proc.devRef .tc b) hostOps0 (W0 m c) (List.forall_iff_forall_mem.mp (by
    simp only [hostOps0, List.Forall, StableHlo.reshape_writes, Finset.mem_singleton]
    exact ⟨StableHlo.devRef_ne_of_ne h0, StableHlo.devRef_ne_of_ne h1⟩))

/-- The sum and the division write only their four results. -/
theorem W3_of_not_written (c : Dev nD) (b : Ref sig .tc) (h0 : b ≠ main_cst) (h1 : b ≠ main_v3) (h2 : b ≠ main_cst_0) (h3 : b ≠ main_v4) :
    W3 m c b = W2 m c b :=
  StableHlo.after_of_forall_not_mem (b := Proc.devRef .tc b) hostOps1 (W2 m c) (List.forall_iff_forall_mem.mp (by
    simp only [hostOps1, List.Forall, StableHlo.nullary_writes, StableHlo.binary_writes, Finset.mem_singleton]
    exact ⟨StableHlo.devRef_ne_of_ne h0, StableHlo.devRef_ne_of_ne h1, StableHlo.devRef_ne_of_ne h2, StableHlo.devRef_ne_of_ne h3⟩))

theorem W3_main_arg0 (c : Dev nD) : W3 m c main_arg0 = m ((c : Thread nD τ).loc main_arg0) :=
  (W3_of_not_written m c main_arg0 (by decide) (by decide) (by decide) (by decide)).trans <|
    (W2_of_ne m c main_arg0 (by decide)).trans <| (W1_of_not_written m c main_arg0 (by decide) (by decide)).trans rfl
theorem W3_main_arg1 (c : Dev nD) : W3 m c main_arg1 = m ((c : Thread nD τ).loc main_arg1) :=
  (W3_of_not_written m c main_arg1 (by decide) (by decide) (by decide) (by decide)).trans <|
    (W2_of_ne m c main_arg1 (by decide)).trans <| (W1_of_not_written m c main_arg1 (by decide) (by decide)).trans rfl
theorem W3_main_arg2 (c : Dev nD) : W3 m c main_arg2 = m ((c : Thread nD τ).loc main_arg2) :=
  (W3_of_not_written m c main_arg2 (by decide) (by decide) (by decide) (by decide)).trans <|
    (W2_of_ne m c main_arg2 (by decide)).trans <| (W1_of_not_written m c main_arg2 (by decide) (by decide)).trans rfl

/-- At the region's exit each window's array holds what the exit valuation says: an input's array is as entered,
    the result's is what the pipeline leaves. -/
theorem exit_arr (c : Dev nD) : ∀ w : Fin cfg0.W, (dats m 0 c).arrAt w cfg0.N = V2 m c (Pipeline.arrRef spec0 w)
  | ⟨0, _⟩ => ((dats m 0 c).arrAt_in 0 rfl _).trans (W2_of_ne m c main_arg0 (by decide)).symm
  | ⟨1, _⟩ => ((dats m 0 c).arrAt_in 1 rfl _).trans (W2_of_ne m c main_arg0 (by decide)).symm
  | ⟨2, _⟩ => ((dats m 0 c).arrAt_in 2 rfl _).trans (W2_of_ne m c main_arg1 (by decide)).symm
  | ⟨3, _⟩ => ((dats m 0 c).arrAt_in 3 rfl _).trans (W2_of_ne m c main_arg1 (by decide)).symm
  | ⟨4, _⟩ => ((dats m 0 c).arrAt_in 4 rfl _).trans (W2_of_ne m c main_v0 (by decide)).symm
  | ⟨5, _⟩ => ((dats m 0 c).arrAt_in 5 rfl _).trans (W2_of_ne m c main_v1 (by decide)).symm
  | ⟨6, _⟩ => (W2_same m c).symm

/-! ## The arrays' buffers dealt to the windows, and joined again -/

/-- The five distinct buffers behind the seven windows' arrays, one by one. -/
theorem arrBufs_list (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_arg1) ↦{fullShare} Vv main_arg1)
          ∗ (((c : Thread nD τ).loc main_v0) ↦{fullShare} Vv main_v0) ∗ (((c : Thread nD τ).loc main_v1) ↦{fullShare} Vv main_v1)
          ∗ (((c : Thread nD τ).loc main_v2) ↦{fullShare} Vv main_v2)) := by
  unfold Pipeline.arrBufs
  exact bigSep_eq_bigSepL_of_eq [main_arg0, main_arg1, main_v0, main_v1, main_v2] (by decide) (by decide) _

/-- The seven windows' arrays as the proof data holds them, one by one: half and half for the two windows of the
    scores and for the two windows of the labels. -/
theorem arrays_list (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare.left} G 2) ∗ (((c : Thread nD τ).loc main_arg1) ↦{fullShare.right} G 3)
          ∗ (((c : Thread nD τ).loc main_v0) ↦{fullShare} G 4) ∗ (((c : Thread nD τ).loc main_v1) ↦{fullShare} G 5)
          ∗ (((c : Thread nD τ).loc main_v2) ↦{fullShare} G 6)) := by
  unfold Dat.arrays
  rw [bigSep_W0]
  rw [(arr_whole0 0).set_eq_univ, (arr_whole0 2).set_eq_univ, (arr_whole0 4).set_eq_univ, (arr_whole0 5).set_eq_univ,
    (arr_whole0 6).set_eq_univ]
  rfl

/-- ENTRY: the buffers behind the arrays, whole at the entry contents, are the windows' arrays at the proof data's
    entry contents. -/
theorem arrays_of_arrBufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_list, arrays_list]
  iintro ⟨H0, H1, H4, H5, H6⟩
  ihave H0' := (pointsTo_share (PosShare.mem_left_op_right fullShare)).1 $$ H0
  icases H0' with ⟨H0a, H0b⟩
  ihave H1' := (pointsTo_share (PosShare.mem_left_op_right fullShare)).1 $$ H1
  icases H1' with ⟨H1a, H1b⟩
  isplitl [H0a]; · iexact H0a
  isplitl [H0b]; · iexact H0b
  isplitl [H1a]; · iexact H1a
  isplitl [H1b]; · iexact H1b
  isplitl [H4]; · iexact H4
  isplitl [H5]; · iexact H5
  iexact H6

/-- EXIT: the windows' arrays at contents that agree on each shared buffer are those buffers whole. -/
theorem arrBufs_of_arrays (c : Dev nD) (Vv : (b : Ref sig .tc) → Buf (Elt F) ((c : Thread nD τ).loc b)) :
    ((dats m 0 c).arrays (fun w => Vv (Pipeline.arrRef spec0 w)) : sProp 𝕄)
      ⊢ Pipeline.arrBufs (Ix := Unit) (Name := ℕ) (U := UR sig nD τ) (Lvl := ℕ) spec0 c Vv := by
  rw [arrBufs_list, arrays_list]
  iintro ⟨H0a, H0b, H1a, H1b, H4, H5, H6⟩
  isplitl [H0a H0b]
  · iapply (pointsTo_share (PosShare.mem_left_op_right fullShare)).2
    isplitl [H0a]; · iexact H0a
    iexact H0b
  isplitl [H1a H1b]
  · iapply (pointsTo_share (PosShare.mem_left_op_right fullShare)).2
    isplitl [H1a]; · iexact H1a
    iexact H1b
  isplitl [H4]; · iexact H4
  isplitl [H5]; · iexact H5
  iexact H6

/-! ## The segments -/

/-- The prefetched tables' admissible contents: the pipeline has no table. -/
abbrev adm : (p : Fin 1) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and that it
    owes nothing. -/
abbrev R (c : Dev nD) : sProp 𝕄 := iprop((∃ r, prngReg c r) ∗ ∃ W, owes (c : Thread nD τ) (0 : CellTallies nD τ sig Unit) W)

/-- A stretch of host operations over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: every unscoped buffer at the last valuation, the generator register at some state. -/
abbrev Tₙ (c : Dev nD) : sProp 𝕄 := iprop(StableHlo.held (c : Thread nD τ) (Pipeline.ucRefs τ sig) (W3 m c) ∗ ∃ r, prngReg c r)

/-- Entering the region: every unscoped buffer at the entry contents is the windows' arrays, dealt, and the rest. -/
theorem entry_split (c : Dev nD) :
    (StableHlo.held (c : Thread nD τ) (Pipeline.ucRefs τ sig) (W1 m c) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  rw [← Pipeline.unscopedBufs_held (Ix := Unit) (Name := ℕ) (U := UR sig nD τ) (Lvl := ℕ) c (W1 m c),
    Pipeline.unscopedBufs_split₀ cfgs (0 : Fin 1) winFacts₀0.arr_unscoped c (V m c)]
  exact sep_mono (arrays_of_arrBufs m c) .rfl

/-- Leaving it: the windows' arrays at their final contents and the untouched rest are every unscoped buffer at
    the exit contents. -/
theorem exit_join (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.unscopedBufs_split₀ cfgs (0 : Fin 1) winFacts₀0.arr_unscoped c (V2 m c),
    show ((dats m 0 c).arrAt · cfg0.N) = fun w => V2 m c (Pipeline.arrRef spec0 w) from funext (exit_arr m c)]
  refine sep_mono (arrBufs_of_arrays m c (V2 m c)) (Entails.of_eq ?_)
  unfold Pipeline.unscopedRest
  refine bigSep_congr fun b hb => ?_
  have hne : b ≠ main_v2 := fun e => (Finset.mem_sdiff.mp hb).2 (e ▸ Finset.mem_image.mpr ⟨6, Finset.mem_univ _, rfl⟩)
  rw [show V2 m c b = V m c b from W2_of_ne m c b hne]

set_option backward.isDefEq.respectTransparency.types false in
/-- THE REGION: entered from every unscoped buffer at the contents after the reshapes, left at the exit contents;
    the generator register goes into the invariant between points and comes back; nothing is owed; the kernel has
    no semaphore of its own. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := entry_split m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's items: the reshapes, the region, the sum and the division. -/
abbrev segs : List (Pipeline.Seg (pcfgs (F := F)) adm (dats m) () defs₀ 𝒱₀ L lv) :=
  [ .host (hseg hostOps0 hostOps0_sub hostOps0_fresh (W0 m)),
    .region (reg0 m),
    .host (hseg hostOps1 hostOps1_sub hostOps1_fresh (W2 m)) ]

theorem main_run (c : Dev nD) : main (F := F) c = Pipeline.Seg.run (segs m) := (main_chain c).trans (by chain_rfl)

set_option backward.isDefEq.respectTransparency.types false in
/-- THE RUN, for any float values: from any memory with zero counters every weakly fair execution of the program
    terminates, nothing faulting; the result holds the sum of the result array's entries divided by sixteen, as
    the last valuation names it, and the three arguments hold what they held at launch. -/
theorem run_main : θ_run defs (onTc (τ := τ) (main (F := F))) ⟨m, fun _ => 0, ρ⟩ (fun r => ∀ c : Dev nD,
      r.2.mem ((c.tc : Thread nD τ).loc main_v4) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (dats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c =>
      (show iprop(StableHlo.held (c : Thread nD τ) (Pipeline.ucRefs τ sig) (W3 m c) ∗ R c)
          ⊢ (iprop(Tₙ m c ∗ ∃ W, owes (c : Thread nD τ) (0 : CellTallies nD τ sig Unit) W) : sProp 𝕄) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v4 (by decide)),
       (h c _ (mem_uc main_arg0 (by decide))).trans (W3_main_arg0 m c),
       (h c _ (mem_uc main_arg1 (by decide))).trans (W3_main_arg1 m c),
       (h c _ (mem_uc main_arg2 (by decide))).trans (W3_main_arg2 m c)⟩)

end Cert.Kernel.Pairwise

end
-- ==== Proof.KI.Base.lean ====
/-
  The pairwise ranking sum, kernel side: what every later module is stated over.

  The grid is 2 x 8 x 8: point t = 64*bb + 8*i + j handles the eight batch rows 8*bb .. 8*bb+7, the
  "row" tile i (256 indices a) and the "column" tile j (256 indices c). Its body adds to an 8x1
  accumulator the tile's double sum over (a, c) of the pairwise term; the accumulator is cleared at
  i = j = 0, i.e. at the points t with t % 64 = 0, and is written back to the 16x1 result after the
  last point of each bb. Here: the contents of the core's buffers when the region is entered, each
  window's block of its array, one point's update of the accumulator as a pure function of the six
  input blocks, the accumulator after each point by recursion on the point, and the closed form of
  the body's one branch condition.
-/
import proofs.«124505_j43963285241920_1_alg».proof.Proof.Gen.KernelIdeal.Launch
import proofs.«124505_j43963285241920_1_alg».proof.Proof.Gen.KernelIdeal.Skeleton
import proofs.«124505_j43963285241920_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Pairwise

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, -/
abbrev W0 (c : Dev nD) : Valuation τ sig (Elt F) := fun b => m ((c : Dev nD), b)
/-- after the two reshapes of the frequency vector (to a column and to a row), -/
abbrev W1 (c : Dev nD) : Valuation τ sig (Elt F) := StableHlo.after hostOps0 (W0 m c)
/-- and the same read at the TensorCore's references: what the region finds. -/
abbrev V (c : Dev nD) (b : Ref sig .tc) : Buf (Elt F) ((c : Thread nD τ).loc b) := W1 m c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## One point's update of the accumulator -/

/-- The accumulator after a point, from the accumulator before it and the point's six input blocks:
    the scores' row and column blocks, the labels' row and column blocks, the frequencies' column and
    row blocks. The tile's double sum of the pairwise term is added to it. -/
def step (acc : Vec F S8x1 .f32) (xi xj : Vec F S8x256 .f32) (ti tj : Vec F S8x256 .i32)
    (fc : Vec F S256x1 .f32) (fr : Vec F S1x256 .f32) : Vec F S8x1 .f32 :=
  k0_pay1 (k0_pay5 fc fr) (k0_pay6 xi xj) (k0_pay7 ti tj) (k0_pay8 ti) (k0_pay9 tj) acc

/-- The accumulator cleared: all zeros. -/
abbrev acc0 : Vec F S8x1 .f32 := k0_pay2 (F := F)

/-- The update at point `t`, on that point's blocks. -/
def stepAt (c : Dev nD) (t : Fin cfg0.N) (acc : Vec F S8x1 .f32) : Vec F S8x1 .f32 :=
  step acc (iblk m c 0 t) (iblk m c 1 t) (iblk m c 2 t) (iblk m c 3 t) (iblk m c 4 t) (iblk m c 5 t)

/-- THE ACCUMULATION: what the result's staging buffer holds after the body at position `n` —
    cleared first at the positions divisible by 64, else continuing from the position before. -/
def accAt (c : Dev nD) : (n : ℕ) → n < cfg0.N → Vec F S8x1 .f32
  | 0, hn => stepAt m c ⟨0, hn⟩ acc0
  | n + 1, hn =>
    if (n + 1) % 64 = 0 then stepAt m c ⟨n + 1, hn⟩ acc0
    else stepAt m c ⟨n + 1, hn⟩ (accAt c n (Nat.lt_of_succ_lt hn))

theorem accAt_reset (c : Dev nD) (t : Fin cfg0.N) (h0 : t.val % 64 = 0) :
    accAt m c t.val t.isLt = stepAt m c t acc0 := by
  obtain ⟨n, hn⟩ := t
  cases n with
  | zero => rfl
  | succ n => exact (if_pos h0).trans rfl

theorem accAt_cont (c : Dev nD) (t : Fin cfg0.N) (h0 : ¬ t.val % 64 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The body's branch -/

/-- The body's one condition, from the grid coordinates: both tile coordinates are zero. -/
abbrev cond (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the first point of each batch block — decided over the grid. -/
theorem hcond : ∀ t : Fin cfg0.N, cond (grid0.coords t) ↔ t.val % 64 = 0 :=
  (by decide +kernel : ∀ t : Fin grid0.N, cond (grid0.coords t) ↔ t.val % 64 = 0)

/-! ## The staging memrefs the body is called with -/

abbrev ms0 (t : Fin cfg0.N) : Memref sig .tc .vmem S8x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x256 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x1 .f32 := win0_6.stage (cfg0.slots t 6)
abbrev hs6 (t : Fin cfg0.N) : (ms6 t).IsWhole := hstage0_6 ((cfg0.slots t 6).cast nbuf0_6)

end Cert.KernelIdeal.Pairwise

end
-- ==== Proof.KI.RunReset.lean ====
/-
  The body at a point that clears the accumulator (both tile coordinates zero): the branch is taken, the
  result's staging buffer is overwritten with zeros, read back, and the tile's sum added.
-/
import proofs.«124505_j43963285241920_1_alg».proof.Proof.KI.Base

set_option maxRecDepth 16384

noncomputable section

namespace Cert.KernelIdeal.Pairwise

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result's staging memref (last first), with the proof that on
    whole staging memrefs — the six inputs' at their contents, the result's as stated — the body runs to the
    continuation holding the inputs' as they were and the result's with those pieces written. -/
noncomputable def runReset (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x256 .i32) (harg5 : arg5.IsWhole) (arg6 : Memref sig .tc .vmem S8x256 .i32) (harg6 : arg6.IsWhole) (arg7 : Memref sig .tc .vmem S256x1 .f32) (harg7 : arg7.IsWhole) (arg8 : Memref sig .tc .vmem S1x256 .f32) (harg8 : arg8.IsWhole) (arg9 : Memref sig .tc .vmem S8x1 .f32) (harg9 : arg9.IsWhole) (hc : cond i)
    (x0 x1 : Vec F S8x256 .f32) (x2 x3 : Vec F S8x256 .i32) (x4 : Vec F S256x1 .f32) (x5 : Vec F S1x256 .f32) :
    { L6 : List (View.Piece (Elt F) S8x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6)) -∗ K ⟨⟩))
          ⊢ wp frame (wpE (defs₀ (F := F)) Variants.none c none) E (cc0__ranking_kernel i arg3 harg3 arg4 harg4 arg5 harg5 arg6 harg6 arg7 harg7 arg8 harg8 arg9 harg9) K } := by
  refine ⟨?_, fun E K => ?run⟩
  case run =>
    simp only [cc0__ranking_kernel_eq_skeleton]; unfold cc0__ranking_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact H6

end Cert.KernelIdeal.Pairwise

end
-- ==== Proof.KI.RunCont.lean ====
/-
  The body at a point that continues the accumulation: the branch is not taken, the result's staging
  buffer is read as the point before left it, and the tile's sum added.
-/
import proofs.«124505_j43963285241920_1_alg».proof.Proof.KI.RunReset

set_option maxRecDepth 16384

noncomputable section

namespace Cert.KernelIdeal.Pairwise

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result's staging memref (last first), with the proof that on
    whole staging memrefs — the six inputs' at their contents, the result's as stated — the body runs to the
    continuation holding the inputs' as they were and the result's with those pieces written. -/
noncomputable def runCont (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x256 .i32) (harg5 : arg5.IsWhole) (arg6 : Memref sig .tc .vmem S8x256 .i32) (harg6 : arg6.IsWhole) (arg7 : Memref sig .tc .vmem S256x1 .f32) (harg7 : arg7.IsWhole) (arg8 : Memref sig .tc .vmem S1x256 .f32) (harg8 : arg8.IsWhole) (arg9 : Memref sig .tc .vmem S8x1 .f32) (harg9 : arg9.IsWhole) (hc : ¬ cond i)
    (x0 x1 : Vec F S8x256 .f32) (x2 x3 : Vec F S8x256 .i32) (x4 : Vec F S256x1 .f32) (x5 : Vec F S1x256 .f32) (xo : Vec F S8x1 .f32) :
    { L6 : List (View.Piece (Elt F) S8x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6)) -∗ K ⟨⟩))
          ⊢ wp frame (wpE (defs₀ (F := F)) Variants.none c none) E (cc0__ranking_kernel i arg3 harg3 arg4 harg4 arg5 harg5 arg6 harg6 arg7 harg7 arg8 harg8 arg9 harg9) K } := by
  refine ⟨?_, fun E K => ?run⟩
  case run =>
    simp only [cc0__ranking_kernel_eq_skeleton]; unfold cc0__ranking_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact H6

end Cert.KernelIdeal.Pairwise

end
-- ==== Proof.KI.Data.lean ====
/-
  The proof data of the one pipeline and the body's obligation at every point.

  After the body at point t each of the six input windows' staging buffers still holds its block of its
  array, and the result's holds the accumulator `accAt` at t. The scores' array is read through two
  windows (row tile and column tile), and so is the labels' array: each of the two windows of such an
  array holds half of the array's share, the frequencies' two reshaped copies and the result are held
  whole.
-/
import proofs.«124505_j43963285241920_1_alg».proof.Proof.KI.RunCont
import Idealize.ShloMosaic.Lib.Pipeline.Value

set_option maxRecDepth 16384

noncomputable section

namespace Cert.KernelIdeal.Pairwise

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body's stores leave, read back -/

theorem off00 : (![0, 0] : Fin 2 → ℕ) = fun _ => 0 := by funext a; fin_cases a <;> rfl

/-- The clearing case: zeros are stored over the whole 8x1 buffer, read back, and the tile's sum added; the last
    store covers the buffer, so it reads back as one update of the cleared accumulator. -/
theorem readback_reset (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x256 .i32) (harg5 : arg5.IsWhole) (arg6 : Memref sig .tc .vmem S8x256 .i32) (harg6 : arg6.IsWhole) (arg7 : Memref sig .tc .vmem S256x1 .f32) (harg7 : arg7.IsWhole) (arg8 : Memref sig .tc .vmem S1x256 .f32) (harg8 : arg8.IsWhole) (arg9 : Memref sig .tc .vmem S8x1 .f32) (harg9 : arg9.IsWhole) (hc : cond i)
    (x0 x1 : Vec F S8x256 .f32) (x2 x3 : Vec F S8x256 .i32) (x4 : Vec F S256x1 .f32) (x5 : Vec F S1x256 .f32) (f : Buf (Elt F) (arg9.view.loc (c : Thread nD τ))) :
    arg9.view.read (Elt F) (arg9.view.writes (Elt F) f (runReset (F := F) c i arg3 harg3 arg4 harg4 arg5 harg5 arg6 harg6 arg7 harg7 arg8 harg8 arg9 harg9 hc x0 x1 x2 x3 x4 x5).1)
      = step acc0 x0 x1 x2 x3 x4 x5 := by
  rw [View.read_writes_eq_canon _ _ _ (View.cover_of_tiledL _ S8x1.size (by sl_kernel_rfl))]
  unfold runReset; dsimp only
  sl_unfold_words
  rw [View.canon_cons_unit_zero (S := S8x1) off00, View.readCov_unit_zero (S := S8x1) _ off00]
  simp only [View.readAt_eq_ld, harg3.read_unread, harg4.read_unread, harg5.read_unread, harg6.read_unread, harg7.read_unread, harg8.read_unread,
    View.ld_unit_zero (S := S8x256) off00, View.ld_unit_zero (S := S256x1) off00, View.ld_unit_zero (S := S1x256) off00]
  rfl

/-- The continuing case: one store over the whole buffer, of the update of what the buffer held. -/
theorem readback_cont (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x256 .i32) (harg5 : arg5.IsWhole) (arg6 : Memref sig .tc .vmem S8x256 .i32) (harg6 : arg6.IsWhole) (arg7 : Memref sig .tc .vmem S256x1 .f32) (harg7 : arg7.IsWhole) (arg8 : Memref sig .tc .vmem S1x256 .f32) (harg8 : arg8.IsWhole) (arg9 : Memref sig .tc .vmem S8x1 .f32) (harg9 : arg9.IsWhole) (hc : ¬ cond i)
    (x0 x1 : Vec F S8x256 .f32) (x2 x3 : Vec F S8x256 .i32) (x4 : Vec F S256x1 .f32) (x5 : Vec F S1x256 .f32) (xo : Vec F S8x1 .f32) (f : Buf (Elt F) (arg9.view.loc (c : Thread nD τ))) :
    arg9.view.read (Elt F) (arg9.view.writes (Elt F) f (runCont (F := F) c i arg3 harg3 arg4 harg4 arg5 harg5 arg6 harg6 arg7 harg7 arg8 harg8 arg9 harg9 hc x0 x1 x2 x3 x4 x5 xo).1)
      = step xo x0 x1 x2 x3 x4 x5 := by
  rw [View.read_writes_eq_canon _ _ _ (View.cover_of_tiledL _ S8x1.size (by sl_kernel_rfl))]
  unfold runCont; dsimp only
  sl_unfold_words
  rw [View.canon_unit_zero (S := S8x1) off00]
  simp only [View.readAt_eq_ld, harg3.read_unread, harg4.read_unread, harg5.read_unread, harg6.read_unread, harg7.read_unread, harg8.read_unread, harg9.read_unread,
    View.ld_unit_zero (S := S8x256) off00, View.ld_unit_zero (S := S256x1) off00, View.ld_unit_zero (S := S1x256) off00, View.ld_unit_zero (S := S8x1) off00]
  rfl

/-! ## The pipeline's proof data -/

/-- On core `c`: the arrays as the region finds them; after the body at point `t` each input's buffer at its
    block and the result's at the accumulator; the invariant between points is the scoped rest and the generator
    register, untouched; nothing owed; the two arrays read twice are held half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accAt m c t.val t.isLt
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = accAt m c t.val t.isLt := by dsimp only [dats]

/-- An input window's staging buffer holds its block at every point, fetched there or not: where it is not
    fetched its block index has not moved since the point before, and the body left the block in place. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-- At a point that continues the accumulation the result's staging buffer holds what the body left at the point
    before: the point is not the first, and the buffer is written back only after the last point of a batch
    block, which the point before is not. -/
theorem before6_cont (c : Dev nD) (t : Fin cfg0.N) (h0 : ¬ t.val % 64 = 0) (d) :
    (dats m 0 c).before 6 t d = accAt m c (t.val - 1) (Nat.lt_of_le_of_lt (Nat.sub_le _ _) t.isLt) := by
  have hN : t.val < 128 := lt_of_lt_of_eq t.isLt (show cfg0.N = 128 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
/-- The body at any point: the inputs' buffers hold their blocks; the closed form of the condition says whether
    the point clears the accumulator; where it does not, the result's buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  by_cases h0 : t.val % 64 = 0
  · rw [accAt_reset m c t h0]
    unfold stepAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runReset c (grid0.coords t) _ _ _ _ _ _ _ _ _ _ _ _ _ _ ((hcond t).mpr h0) (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact readback_reset c _ _ _ _ _ _ _ _ _ _ _ _ _ _ _ _ _ _ _ _ _ _ _
  · rw [accAt_cont m c t h0]
    simp only [before6_cont m c t h0]
    unfold stepAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runCont c (grid0.coords t) _ _ _ _ _ _ _ _ _ _ _ _ _ _ (fun h => h0 ((hcond t).mp h)) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact readback_cont c _ _ _ _ _ _ _ _ _ _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Pairwise

end
-- ==== Proof.KI.Exit.lean ====
/-
  The buffers after the region and after the host operations that follow it.

  The region changes one unscoped buffer, the 16x1 result; the inputs' arrays end as they were entered. The
  four host operations after it sum the result's sixteen entries and divide by sixteen.
-/
import proofs.«124505_j43963285241920_1_alg».proof.Proof.KI.Data

set_option maxRecDepth 16384

noncomputable section

namespace Cert.KernelIdeal.Pairwise

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array as the pipeline leaves it: the write-backs of the two batch blocks folded. -/
def outArr (c : Dev nD) : Vec F S16x1 .f32 := (dats m 0 c).arrAt 6 cfg0.N

/-- Core `c`'s buffers at the region's exit: the result at what the pipeline leaves, every other buffer as
    entered; -/
def W2 (c : Dev nD) : Valuation τ sig (Elt F) := Function.update (W1 m c) main_v2 (outArr m c)
/-- and after the four host operations that follow. -/
abbrev W3 (c : Dev nD) : Valuation τ sig (Elt F) := StableHlo.after hostOps1 (W2 m c)

/-- The program's result. -/
abbrev resultOf (c : Dev nD) : Vec F S_ .f32 := W3 m c main_v4

end Cert.KernelIdeal.Pairwise

end
-- ==== Proof.KI.Launch.lean ====
/-
  The run of the whole program: the two reshapes, the kernel region, the sum and the division.

  Between two items of the program the core holds every unscoped buffer whole at a known valuation. Entering
  the region, the buffers behind the seven windows' arrays are dealt to the windows: the scores' array and the
  labels' array are each read through two windows, so each is split into two half shares; the other three are
  held whole. Leaving it, the halves are joined again; only the 16x1 result has changed. At the end every
  unscoped buffer is read against the final memory: the program's result, and the three arguments, which no
  item writes.
-/
import proofs.«124505_j43963285241920_1_alg».proof.Proof.KI.Exit
import Idealize.ShloMosaic.Lib.Pipeline.Regions
import Idealize.ShloMosaic.Lib.Pipeline.RegionsLoop

set_option maxRecDepth 16384

noncomputable section

namespace Cert.KernelIdeal.Pairwise

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations: what no item changes -/

/-- The same as `W2`, read at the TensorCore's references. -/
abbrev V2 (c : Dev nD) (b : Ref sig .tc) : Buf (Elt F) ((c : Thread nD τ).loc b) := W2 m c b

theorem W2_same (c : Dev nD) : W2 m c main_v2 = outArr m c := by
  unfold W2; exact Function.update_self ..

theorem W2_of_ne (c : Dev nD) (b : Ref sig .tc) (h : b ≠ main_v2) : W2 m c b = W1 m c b := by
  unfold W2
  exact Function.update_of_ne (StableHlo.devRef_ne_of_ne h : (Proc.devRef .tc b : DevRef τ sig) ≠ Proc.devRef .tc main_v2) _ _

/-- The reshapes write only the two copies of the frequencies. -/
theorem W1_of_not_written (c : Dev nD) (b : Ref sig .tc) (h0 : b ≠ main_v0) (h1 : b ≠ main_v1) : W1 m c b = W0 m c b :=
  StableHlo.after_of_forall_not_mem (b := Proc.devRef .tc b) hostOps0 (W0 m c) (List.forall_iff_forall_mem.mp (by
    simp only [hostOps0, List.Forall, StableHlo.reshape_writes, Finset.mem_singleton]
    exact ⟨StableHlo.devRef_ne_of_ne h0, StableHlo.devRef_ne_of_ne h1⟩))

/-- The sum and the division write only their four results. -/
theorem W3_of_not_written (c : Dev nD) (b : Ref sig .tc) (h0 : b ≠ main_cst) (h1 : b ≠ main_v3) (h2 : b ≠ main_cst_0) (h3 : b ≠ main_v4) :
    W3 m c b = W2 m c b :=
  StableHlo.after_of_forall_not_mem (b := Proc.devRef .tc b) hostOps1 (W2 m c) (List.forall_iff_forall_mem.mp (by
    simp only [hostOps1, List.Forall, StableHlo.nullary_writes, StableHlo.binary_writes, Finset.mem_singleton]
    exact ⟨StableHlo.devRef_ne_of_ne h0, StableHlo.devRef_ne_of_ne h1, StableHlo.devRef_ne_of_ne h2, StableHlo.devRef_ne_of_ne h3⟩))

theorem W3_main_arg0 (c : Dev nD) : W3 m c main_arg0 = m ((c : Thread nD τ).loc main_arg0) :=
  (W3_of_not_written m c main_arg0 (by decide) (by decide) (by decide) (by decide)).trans <|
    (W2_of_ne m c main_arg0 (by decide)).trans <| (W1_of_not_written m c main_arg0 (by decide) (by decide)).trans rfl
theorem W3_main_arg1 (c : Dev nD) : W3 m c main_arg1 = m ((c : Thread nD τ).loc main_arg1) :=
  (W3_of_not_written m c main_arg1 (by decide) (by decide) (by decide) (by decide)).trans <|
    (W2_of_ne m c main_arg1 (by decide)).trans <| (W1_of_not_written m c main_arg1 (by decide) (by decide)).trans rfl
theorem W3_main_arg2 (c : Dev nD) : W3 m c main_arg2 = m ((c : Thread nD τ).loc main_arg2) :=
  (W3_of_not_written m c main_arg2 (by decide) (by decide) (by decide) (by decide)).trans <|
    (W2_of_ne m c main_arg2 (by decide)).trans <| (W1_of_not_written m c main_arg2 (by decide) (by decide)).trans rfl

/-- At the region's exit each window's array holds what the exit valuation says: an input's array is as entered,
    the result's is what the pipeline leaves. -/
theorem exit_arr (c : Dev nD) : ∀ w : Fin cfg0.W, (dats m 0 c).arrAt w cfg0.N = V2 m c (Pipeline.arrRef spec0 w)
  | ⟨0, _⟩ => ((dats m 0 c).arrAt_in 0 rfl _).trans (W2_of_ne m c main_arg0 (by decide)).symm
  | ⟨1, _⟩ => ((dats m 0 c).arrAt_in 1 rfl _).trans (W2_of_ne m c main_arg0 (by decide)).symm
  | ⟨2, _⟩ => ((dats m 0 c).arrAt_in 2 rfl _).trans (W2_of_ne m c main_arg1 (by decide)).symm
  | ⟨3, _⟩ => ((dats m 0 c).arrAt_in 3 rfl _).trans (W2_of_ne m c main_arg1 (by decide)).symm
  | ⟨4, _⟩ => ((dats m 0 c).arrAt_in 4 rfl _).trans (W2_of_ne m c main_v0 (by decide)).symm
  | ⟨5, _⟩ => ((dats m 0 c).arrAt_in 5 rfl _).trans (W2_of_ne m c main_v1 (by decide)).symm
  | ⟨6, _⟩ => (W2_same m c).symm

/-! ## The arrays' buffers dealt to the windows, and joined again -/

/-- The five distinct buffers behind the seven windows' arrays, one by one. -/
theorem arrBufs_list (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_arg1) ↦{fullShare} Vv main_arg1)
          ∗ (((c : Thread nD τ).loc main_v0) ↦{fullShare} Vv main_v0) ∗ (((c : Thread nD τ).loc main_v1) ↦{fullShare} Vv main_v1)
          ∗ (((c : Thread nD τ).loc main_v2) ↦{fullShare} Vv main_v2)) := by
  unfold Pipeline.arrBufs
  exact bigSep_eq_bigSepL_of_eq [main_arg0, main_arg1, main_v0, main_v1, main_v2] (by decide) (by decide) _

/-- The seven windows' arrays as the proof data holds them, one by one: half and half for the two windows of the
    scores and for the two windows of the labels. -/
theorem arrays_list (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare.left} G 2) ∗ (((c : Thread nD τ).loc main_arg1) ↦{fullShare.right} G 3)
          ∗ (((c : Thread nD τ).loc main_v0) ↦{fullShare} G 4) ∗ (((c : Thread nD τ).loc main_v1) ↦{fullShare} G 5)
          ∗ (((c : Thread nD τ).loc main_v2) ↦{fullShare} G 6)) := by
  unfold Dat.arrays
  rw [bigSep_W0]
  rw [(arr_whole0 0).set_eq_univ, (arr_whole0 2).set_eq_univ, (arr_whole0 4).set_eq_univ, (arr_whole0 5).set_eq_univ,
    (arr_whole0 6).set_eq_univ]
  rfl

/-- ENTRY: the buffers behind the arrays, whole at the entry contents, are the windows' arrays at the proof data's
    entry contents. -/
theorem arrays_of_arrBufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_list, arrays_list]
  iintro ⟨H0, H1, H4, H5, H6⟩
  ihave H0' := (pointsTo_share (PosShare.mem_left_op_right fullShare)).1 $$ H0
  icases H0' with ⟨H0a, H0b⟩
  ihave H1' := (pointsTo_share (PosShare.mem_left_op_right fullShare)).1 $$ H1
  icases H1' with ⟨H1a, H1b⟩
  isplitl [H0a]; · iexact H0a
  isplitl [H0b]; · iexact H0b
  isplitl [H1a]; · iexact H1a
  isplitl [H1b]; · iexact H1b
  isplitl [H4]; · iexact H4
  isplitl [H5]; · iexact H5
  iexact H6

/-- EXIT: the windows' arrays at contents that agree on each shared buffer are those buffers whole. -/
theorem arrBufs_of_arrays (c : Dev nD) (Vv : (b : Ref sig .tc) → Buf (Elt F) ((c : Thread nD τ).loc b)) :
    ((dats m 0 c).arrays (fun w => Vv (Pipeline.arrRef spec0 w)) : sProp 𝕄)
      ⊢ Pipeline.arrBufs (Ix := Unit) (Name := ℕ) (U := UR sig nD τ) (Lvl := ℕ) spec0 c Vv := by
  rw [arrBufs_list, arrays_list]
  iintro ⟨H0a, H0b, H1a, H1b, H4, H5, H6⟩
  isplitl [H0a H0b]
  · iapply (pointsTo_share (PosShare.mem_left_op_right fullShare)).2
    isplitl [H0a]; · iexact H0a
    iexact H0b
  isplitl [H1a H1b]
  · iapply (pointsTo_share (PosShare.mem_left_op_right fullShare)).2
    isplitl [H1a]; · iexact H1a
    iexact H1b
  isplitl [H4]; · iexact H4
  isplitl [H5]; · iexact H5
  iexact H6

/-! ## The segments -/

/-- The prefetched tables' admissible contents: the pipeline has no table. -/
abbrev adm : (p : Fin 1) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and that it
    owes nothing. -/
abbrev R (c : Dev nD) : sProp 𝕄 := iprop((∃ r, prngReg c r) ∗ ∃ W, owes (c : Thread nD τ) (0 : CellTallies nD τ sig Unit) W)

/-- A stretch of host operations over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: every unscoped buffer at the last valuation, the generator register at some state. -/
abbrev Tₙ (c : Dev nD) : sProp 𝕄 := iprop(StableHlo.held (c : Thread nD τ) (Pipeline.ucRefs τ sig) (W3 m c) ∗ ∃ r, prngReg c r)

/-- Entering the region: every unscoped buffer at the entry contents is the windows' arrays, dealt, and the rest. -/
theorem entry_split (c : Dev nD) :
    (StableHlo.held (c : Thread nD τ) (Pipeline.ucRefs τ sig) (W1 m c) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  rw [← Pipeline.unscopedBufs_held (Ix := Unit) (Name := ℕ) (U := UR sig nD τ) (Lvl := ℕ) c (W1 m c),
    Pipeline.unscopedBufs_split₀ cfgs (0 : Fin 1) winFacts₀0.arr_unscoped c (V m c)]
  exact sep_mono (arrays_of_arrBufs m c) .rfl

/-- Leaving it: the windows' arrays at their final contents and the untouched rest are every unscoped buffer at
    the exit contents. -/
theorem exit_join (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.unscopedBufs_split₀ cfgs (0 : Fin 1) winFacts₀0.arr_unscoped c (V2 m c),
    show ((dats m 0 c).arrAt · cfg0.N) = fun w => V2 m c (Pipeline.arrRef spec0 w) from funext (exit_arr m c)]
  refine sep_mono (arrBufs_of_arrays m c (V2 m c)) (Entails.of_eq ?_)
  unfold Pipeline.unscopedRest
  refine bigSep_congr fun b hb => ?_
  have hne : b ≠ main_v2 := fun e => (Finset.mem_sdiff.mp hb).2 (e ▸ Finset.mem_image.mpr ⟨6, Finset.mem_univ _, rfl⟩)
  rw [show V2 m c b = V m c b from W2_of_ne m c b hne]

set_option backward.isDefEq.respectTransparency.types false in
/-- THE REGION: entered from every unscoped buffer at the contents after the reshapes, left at the exit contents;
    the generator register goes into the invariant between points and comes back; nothing is owed; the kernel has
    no semaphore of its own. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := entry_split m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's items: the reshapes, the region, the sum and the division. -/
abbrev segs : List (Pipeline.Seg (pcfgs (F := F)) adm (dats m) () defs₀ 𝒱₀ L lv) :=
  [ .host (hseg hostOps0 hostOps0_sub hostOps0_fresh (W0 m)),
    .region (reg0 m),
    .host (hseg hostOps1 hostOps1_sub hostOps1_fresh (W2 m)) ]

theorem main_run (c : Dev nD) : main (F := F) c = Pipeline.Seg.run (segs m) := (main_chain c).trans (by chain_rfl)

set_option backward.isDefEq.respectTransparency.types false in
/-- THE RUN, for any float values: from any memory with zero counters every weakly fair execution of the program
    terminates, nothing faulting; the result holds the sum of the result array's entries divided by sixteen, as
    the last valuation names it, and the three arguments hold what they held at launch. -/
theorem run_main : θ_run defs (onTc (τ := τ) (main (F := F))) ⟨m, fun _ => 0, ρ⟩ (fun r => ∀ c : Dev nD,
      r.2.mem ((c.tc : Thread nD τ).loc main_v4) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (dats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c =>
      (show iprop(StableHlo.held (c : Thread nD τ) (Pipeline.ucRefs τ sig) (W3 m c) ∗ R c)
          ⊢ (iprop(Tₙ m c ∗ ∃ W, owes (c : Thread nD τ) (0 : CellTallies nD τ sig Unit) W) : sProp 𝕄) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v4 (by decide)),
       (h c _ (mem_uc main_arg0 (by decide))).trans (W3_main_arg0 m c),
       (h c _ (mem_uc main_arg1 (by decide))).trans (W3_main_arg1 m c),
       (h c _ (mem_uc main_arg2 (by decide))).trans (W3_main_arg2 m c)⟩)

end Cert.KernelIdeal.Pairwise

end
-- ==== Proof.Spec.lean ====
/-
  The pairwise ranking loss as one function of the three argument arrays, over the extended reals.

  For a batch row b and label indices a, c (2048 labels): with s = logistic of the score, p the label read as a
  number, and r(a, c) = (f_a - f_c) / (f_a + f_c) the frequency ratio,

    term b a c = max (r(a,c) * (s_a - s_c)) 0 * (p_a * p_c)  +  (γ * max (0 - (s_a - s_c)) 0) * (p_a * (1 - p_c)),

  γ the single-precision number written 0.1 and 1 the single-precision one, each kept as its word. The loss is the
  sum of the term over all (b, a, c), divided by the single-precision sixteen. Both programs compute exactly this
  term; they differ only in how the triple sum is grouped, and addition on the extended reals is commutative and
  associative, so the grouping does not matter.
-/
import Idealize.ShloMosaic.PureOps.Ideal
import Idealize.ShloMosaic.PureOps.Ideal.Laws
import Idealize.ShloMosaic.Lib.ValueIdx

noncomputable section

open scoped BigOperators

namespace Cert.RankSpec

open Idealize.ShloMosaic Idealize.ShloMosaic.ValueIdx

/-- The scores' and labels' shape, and the frequencies'. -/
abbrev SBL : Shape := ⟨2, ![16, 2048]⟩
abbrev SL : Shape := ⟨1, ![2048]⟩

variable (x : SBL.Idx → EReal) (tg : SBL.Idx → BitVec 32) (fr : SL.Idx → EReal)

/-- The logistic of a score. -/
def sc (b : Fin 16) (a : Fin 2048) : EReal := Ideal.logistic (x (ix2 b a))
/-- A label as a number. -/
def pos (b : Fin 16) (a : Fin 2048) : EReal := (((tg (ix2 b a)).toInt : ℝ) : EReal)
/-- The frequency ratio of two labels. -/
def ratio (a c : Fin 2048) : EReal := Ideal.div (fr (ix1 a) - fr (ix1 c)) (fr (ix1 a) + fr (ix1 c))

/-- The pairwise term. -/
def term (b : Fin 16) (a c : Fin 2048) : EReal :=
  max (ratio fr a c * (sc x b a - sc x b c)) 0 * (pos tg b a * pos tg b c)
    + (Ideal.ofBits .f32 0x3DCCCCCD#32 * max (0 - (sc x b a - sc x b c)) 0)
        * (pos tg b a * (Ideal.ofBits .f32 0x3F800000#32 - pos tg b c))

/-- One batch row's double sum. -/
def rowTotal (b : Fin 16) : EReal := ∑ a : Fin 2048, ∑ c : Fin 2048, term x tg fr b a c

/-- The triple sum. -/
def total : EReal := ∑ b : Fin 16, rowTotal x tg fr b

/-- The loss. -/
def loss : EReal := Ideal.div (total x tg fr) (Ideal.ofBits .f32 0x41800000#32)

end Cert.RankSpec

end
-- ==== Proof.KI.Tile.lean ====
/-
  A grid point's coordinates as array indices, and the pairwise term over one point's six blocks.

  Point t = 64*bb + 8*i + j: local row r of the 8-row block is batch row 8*bb + r; local index a of the row
  tile is label 256*i + a; local index c of the column tile is label 256*j + c.
-/
import proofs.«124505_j43963285241920_1_alg».proof.Proof.KI.Base
import proofs.«124505_j43963285241920_1_alg».proof.Proof.Spec

set_option maxRecDepth 16384

noncomputable section

open scoped BigOperators

namespace Cert.KernelIdeal.Pairwise

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The three argument arrays on core `c`: scores, labels, frequencies. -/
abbrev xA (c : Dev nD) : Vec Ideal S16x2048 .f32 := m ((c : Thread nD τ).loc main_arg0)
abbrev tA (c : Dev nD) : Vec Ideal S16x2048 .i32 := m ((c : Thread nD τ).loc main_arg1)
abbrev fA (c : Dev nD) : Vec Ideal S2048 .f32 := m ((c : Thread nD τ).loc main_arg2)

theorem N128 (t : Fin cfg0.N) : t.val < 128 := lt_of_lt_of_eq t.isLt (show cfg0.N = 128 from N_0)

/-- The batch row of local row `r` at point `t`. -/
def rowOf (t : Fin cfg0.N) (r : Fin 8) : Fin 16 := ⟨8 * (t.val / 64) + r.val, by have := N128 t; omega⟩
/-- The label of local index `a` of the row tile at point `t`. -/
def colI (t : Fin cfg0.N) (a : Fin 256) : Fin 2048 := ⟨256 * (t.val / 8 % 8) + a.val, by omega⟩
/-- The label of local index `c` of the column tile at point `t`. -/
def colJ (t : Fin cfg0.N) (c : Fin 256) : Fin 2048 := ⟨256 * (t.val % 8) + c.val, by omega⟩

/-- The pairwise term over one point's blocks, at local row `r` and local indices `a`, `c`. -/
def tileTerm (xi xj : Vec Ideal S8x256 .f32) (ti tj : Vec Ideal S8x256 .i32) (fc : Vec Ideal S256x1 .f32) (fr : Vec Ideal S1x256 .f32)
    (r : Fin 8) (a c : Fin 256) : EReal :=
  max (Ideal.div (fc (ix2 a 0) - fr (ix2 0 c)) (fc (ix2 a 0) + fr (ix2 0 c))
        * (Ideal.logistic (xi (ix2 r a)) - Ideal.logistic (xj (ix2 r c)))) 0
      * ((((ti (ix2 r a)).toInt : ℝ) : EReal) * (((tj (ix2 r c)).toInt : ℝ) : EReal))
    + (Ideal.ofBits .f32 0x3DCCCCCD#32 * max (0 - (Ideal.logistic (xi (ix2 r a)) - Ideal.logistic (xj (ix2 r c)))) 0)
      * ((((ti (ix2 r a)).toInt : ℝ) : EReal) * (Ideal.ofBits .f32 0x3F800000#32 - (((tj (ix2 r c)).toInt : ℝ) : EReal)))

end Cert.KernelIdeal.Pairwise

end
-- ==== Proof.KI.StepValue.lean ====
/-
  One point's update of the accumulator, read at a row: the accumulator's entry plus the tile's double sum of
  the pairwise term.

  Layout first: the unit-axis casts [a,b] -> [a,b,1], [a,b] -> [a,1,b], [a] -> [a,1] and the broadcasts along a unit
  axis, each read at explicit coordinates (row-major arithmetic for a cast, one equation per axis for a broadcast);
  a lane sum over the last axis of a rank-3 and of a rank-2 vector as a sum over that axis's coordinates. Then each
  payload at an index, and the update as their composition.
-/
import proofs.«124505_j43963285241920_1_alg».proof.Proof.KI.Tile
import Idealize.ShloMosaic.PureOps.Ideal.Laws
import Idealize.ShloMosaic.Lib.Pipeline.Value
import Idealize.ShloMosaic.Lib.ValueLayout

set_option maxRecDepth 16384

noncomputable section

open scoped BigOperators

namespace Cert.KernelIdeal.Pairwise

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## Layout operations at explicit coordinates -/

section Layout
variable {α : Type}

/-- An [a, b] array cast to [a, b, 1] reads, at (i, j, u), the operand at (i, j): the two row-major positions agree. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A [1, b, c] array broadcast to [a, b, c] reads, at (i, j, k), the operand at (0, j, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An [a, 1] column broadcast to [a, b] reads, at (i, j), the operand at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## The two lane sums -/

/-- The sum along the last axis of an [8, 256, 256] vector, at (r, a): the sum over c of the entries (r, a, c). -/
theorem laneSum3_apply (src : FVec Ideal S8x256x256 .f32) (h : S8x256x256.Reduces [2] S8x256) (hφ : FKind.Formats .f32)
    (hacc : (0x00000000#32 : BitVec 32) = FKind.add.neutral .f32 hφ) (r : Fin 8) (a : Fin 256) :
    multiReduction (F := Ideal) .add [2] S8x256 src 0x00000000#32 h hφ hacc (ix2 r a) = ∑ c : Fin 256, src (ix3 r a c) := by
  refine (Ideal.multiReduction_add_single src 0x00000000#32 h hφ hacc (ix2 r a)).trans ?_
  show ∑ c : Fin 256, src (h.lift (ix2 r a) c) = _
  refine Finset.sum_congr rfl fun c _ => congrArg src ?_
  funext d
  match d with
  | ⟨0, _⟩ => exact Fin.ext rfl
  | ⟨1, _⟩ => exact Fin.ext rfl
  | ⟨2, _⟩ => exact Fin.ext rfl

/-- The sum along the last axis of an [8, 256] vector, at r: the sum over a of the entries (r, a). -/
theorem laneSum2_apply (src : FVec Ideal S8x256 .f32) (h : S8x256.Reduces [1] S8) (hφ : FKind.Formats .f32)
    (hacc : (0x00000000#32 : BitVec 32) = FKind.add.neutral .f32 hφ) (r : Fin 8) :
    multiReduction (F := Ideal) .add [1] S8 src 0x00000000#32 h hφ hacc (ix1 r) = ∑ a : Fin 256, src (ix2 r a) := by
  refine (Ideal.multiReduction_add_single src 0x00000000#32 h hφ hacc (ix1 r)).trans ?_
  show ∑ a : Fin 256, src (h.lift (ix1 r) a) = _
  refine Finset.sum_congr rfl fun a _ => congrArg src ?_
  funext d
  match d with
  | ⟨0, _⟩ => exact Fin.ext rfl
  | ⟨1, _⟩ => exact Fin.ext rfl

/-! ## The payloads at an index -/

/-- The frequency ratio at (a, c): the column entry a and the row entry c, difference over sum. -/
theorem ratio_apply (fc : Vec Ideal S256x1 .f32) (fr : Vec Ideal S1x256 .f32) (a c : Fin 256) :
    k0_pay5 (F := Ideal) fc fr (ix2 a c)
      = Ideal.div (fc (ix2 a 0) - fr (ix2 0 c)) (fc (ix2 a 0) + fr (ix2 0 c)) := by
  unfold k0_pay5
  have ec : ∀ h₁ h₂, broadcastTo S256x256 (shapeCast S256x1 fc h₁) h₂ (ix2 a c) = fc (ix2 a 0) := fun h₁ h₂ =>
    (broadcastTo_a1_ab_apply _ h₂ a c).trans (congrFun (shapeCast_self fc h₁) _)
  have er : ∀ h₁ h₂, broadcastTo S256x256 (shapeCast S1x256 fr h₁) h₂ (ix2 a c) = fr (ix2 0 c) := fun h₁ h₂ =>
    (broadcastTo_1b_ab_apply _ h₂ a c).trans (congrFun (shapeCast_self fr h₁) _)
  show Ideal.div (_ - _) (_ + _) = _
  rw [ec, er]

/-- The difference of the logistic scores at (r, a, c): row entry (r, a) minus column entry (r, c). -/
theorem diff_apply (xi xj : Vec Ideal S8x256 .f32) (r : Fin 8) (a c : Fin 256) :
    k0_pay6 (F := Ideal) xi xj (ix3 r a c) = Ideal.logistic (xi (ix2 r a)) - Ideal.logistic (xj (ix2 r c)) := by
  unfold k0_pay6
  refine congrArg₂ (· - ·) ?_ ?_
  · exact (broadcastTo_ab1_abc_apply _ _ r a c).trans (shapeCast_ab_ab1_apply _ _ r a 0)
  · exact (broadcastTo_a1c_abc_apply _ _ r a c).trans (shapeCast_ab_a1b_apply _ _ r 0 c)

/-- The label of the row tile at (r, a, c): the integer (r, a), as a real. -/
theorem labI_apply (ti : Vec Ideal S8x256 .i32) (r : Fin 8) (a c : Fin 256) :
    k0_pay8 (F := Ideal) ti (ix3 r a c) = (((ti (ix2 r a)).toInt : ℝ) : EReal) := by
  unfold k0_pay8 k0_pay3
  exact (broadcastTo_ab1_abc_apply _ _ r a c).trans (shapeCast_ab_ab1_apply _ _ r a 0)

/-- One minus the label of the column tile at (r, a, c). -/
theorem labJc_apply (tj : Vec Ideal S8x256 .i32) (r : Fin 8) (a c : Fin 256) :
    k0_pay9 (F := Ideal) tj (ix3 r a c) = Ideal.ofBits .f32 0x3F800000#32 - (((tj (ix2 r c)).toInt : ℝ) : EReal) := by
  unfold k0_pay9 k0_pay4
  exact (broadcastTo_a1c_abc_apply _ _ r a c).trans (shapeCast_ab_a1b_apply _ _ r 0 c)

/-- The product of the two labels at (r, a, c). -/
theorem labIJ_apply (ti tj : Vec Ideal S8x256 .i32) (r : Fin 8) (a c : Fin 256) :
    k0_pay7 (F := Ideal) ti tj (ix3 r a c)
      = (((ti (ix2 r a)).toInt : ℝ) : EReal) * (((tj (ix2 r c)).toInt : ℝ) : EReal) := by
  unfold k0_pay7 k0_pay3 k0_pay4
  refine congrArg₂ (· * ·) ?_ ?_
  · exact (broadcastTo_ab1_abc_apply _ _ r a c).trans (shapeCast_ab_ab1_apply _ _ r a 0)
  · exact (broadcastTo_a1c_abc_apply _ _ r a c).trans (shapeCast_ab_a1b_apply _ _ r 0 c)

/-- The update at row r over arbitrary operands: the old entry plus the double sum over (a, c) of the two products. -/
theorem update_apply (v25 : FVec Ideal S256x256 .f32) (v30 v35 v38 v39 : FVec Ideal S8x256x256 .f32)
    (v58 : Vec Ideal S8x1 .f32) (r : Fin 8) :
    k0_pay1 (F := Ideal) v25 v30 v35 v38 v39 v58 (ix2 r 0)
      = v58 (ix2 r 0) + ∑ a : Fin 256, ∑ c : Fin 256,
          (max (v25 (ix2 a c) * v30 (ix3 r a c)) 0 * v35 (ix3 r a c)
            + (Ideal.ofBits .f32 0x3DCCCCCD#32 * max (0 - v30 (ix3 r a c)) 0) * (v38 (ix3 r a c) * v39 (ix3 r a c))) := by
  unfold k0_pay1
  refine congrArg₂ (· + ·) ?_ ?_
  · exact congrFun (shapeCast_self v58 _) (ix2 r 0)
  · refine (shapeCast_a_a1_apply _ _ r 0).trans ?_
    refine (laneSum2_apply _ _ _ _ r).trans ?_
    refine Finset.sum_congr rfl fun a _ => ?_
    refine (laneSum3_apply _ _ _ _ r a).trans ?_
    refine Finset.sum_congr rfl fun c _ => ?_
    show max (_ * v30 (ix3 r a c)) (Ideal.ofBits .f32 0x00000000#32) * v35 (ix3 r a c)
        + (Ideal.ofBits .f32 0x3DCCCCCD#32 * max (Ideal.ofBits .f32 0x00000000#32 - v30 (ix3 r a c)) (Ideal.ofBits .f32 0x00000000#32))
          * (v38 (ix3 r a c) * v39 (ix3 r a c)) = _
    rw [Ideal.ofBits_zero_f32]
    refine congrArg (fun z => max (z * v30 (ix3 r a c)) 0 * v35 (ix3 r a c) + _) ?_
    exact (broadcastTo_1bc_abc_apply _ _ r a c).trans (shapeCast_ab_1ab_apply _ _ 0 a c)

theorem step_apply (acc : Vec Ideal S8x1 .f32) (xi xj : Vec Ideal S8x256 .f32) (ti tj : Vec Ideal S8x256 .i32)
    (fc : Vec Ideal S256x1 .f32) (fr : Vec Ideal S1x256 .f32) (r : Fin 8) :
    step (F := Ideal) acc xi xj ti tj fc fr (ix2 r 0)
      = acc (ix2 r 0) + ∑ a : Fin 256, ∑ c : Fin 256, tileTerm xi xj ti tj fc fr r a c := by
  unfold step
  refine (update_apply _ _ _ _ _ acc r).trans ?_
  refine congrArg (acc (ix2 r 0) + ·) ?_
  refine Finset.sum_congr rfl fun a _ => Finset.sum_congr rfl fun c _ => ?_
  rw [ratio_apply, diff_apply, labIJ_apply, labI_apply, labJc_apply]
  rfl

/-- The cleared accumulator is zero at every row. -/
theorem acc0_apply (r : Fin 8) : acc0 (F := Ideal) (ix2 r 0) = 0 := by
  show Ideal.ofBits .f32 0x00000000#32 = 0
  exact Ideal.ofBits_zero_f32

end Cert.KernelIdeal.Pairwise

end
-- ==== Proof.KI.Blocks.lean ====
/-
  Each window's block at a point, read at a local index, is its array at the point's global index: the scores'
  and labels' row-tile and column-tile blocks off the argument arrays, the frequencies' column and row blocks off
  the two reshaped copies of the frequency vector the host made before the region.
-/
import proofs.«124505_j43963285241920_1_alg».proof.Proof.KI.Tile
import Idealize.ShloMosaic.Lib.Pipeline.Value
import Idealize.ShloMosaic.Lib.StableHlo.Run
import Idealize.ShloMosaic.Lib.ValueLayout

set_option maxRecDepth 16384

noncomputable section

open scoped BigOperators

namespace Cert.KernelIdeal.Pairwise

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The printed index maps against the point's number `t = 64*bb + 8*i + j`, decided once over the grid:
    windows 0 and 2 sit at block (bb, i), windows 1 and 3 at (bb, j), window 4 at (i, 0), window 5 at (0, j). -/
theorem idx_facts : ∀ t : Fin cfg0.N,
    win0_0.index t (0 : Fin 2) = t.val / 64 ∧ win0_0.index t (1 : Fin 2) = t.val / 8 % 8
    ∧ win0_1.index t (0 : Fin 2) = t.val / 64 ∧ win0_1.index t (1 : Fin 2) = t.val % 8
    ∧ win0_2.index t (0 : Fin 2) = t.val / 64 ∧ win0_2.index t (1 : Fin 2) = t.val / 8 % 8
    ∧ win0_3.index t (0 : Fin 2) = t.val / 64 ∧ win0_3.index t (1 : Fin 2) = t.val % 8
    ∧ win0_4.index t (0 : Fin 2) = t.val / 8 % 8 ∧ win0_4.index t (1 : Fin 2) = 0
    ∧ win0_5.index t (0 : Fin 2) = 0 ∧ win0_5.index t (1 : Fin 2) = t.val % 8 :=
  (by decide +kernel : ∀ t : Fin grid0.N, _)

/-- The scores as the region finds them are the argument: neither reshape writes them. -/
theorem V_arg0 (c : Dev nD) : (V m c main_arg0 : Vec Ideal S16x2048 .f32) = xA m c := by
  dsimp only [V, W1, hostOps0]; after_results
/-- The labels likewise. -/
theorem V_arg1 (c : Dev nD) : (V m c main_arg1 : Vec Ideal S16x2048 .i32) = tA m c := by
  dsimp only [V, W1, hostOps0]; after_results

/-- The column copy of the frequencies, read at row `k`: a reshape keeps the row-major position, and
    position `k * 1 + 0` of the 2048 x 1 array is position `k` of the vector. -/
theorem V_v0_apply (c : Dev nD) (k : Fin 2048) :
    (V m c main_v0 : Vec Ideal S2048x1 .f32) (ix2 k 0) = fA m c (ix1 k) := by
  have e : (V m c main_v0 : Vec Ideal S2048x1 .f32) = shapeCast S2048x1 (fA m c) (by decide) := by
    dsimp only [V, W1, hostOps0]; after_results; rfl
  rw [e]
  refine shapeCast_apply _ _ _ _ ?_
  rw [Shape.rowMajor_val_one, Shape.rowMajor_val_two]
  show k.val = k.val * 1 + 0
  omega
/-- The row copy, read at column `k`: position `0 * 2048 + k` of the 1 x 2048 array is position `k` of the vector. -/
theorem V_v1_apply (c : Dev nD) (k : Fin 2048) :
    (V m c main_v1 : Vec Ideal S1x2048 .f32) (ix2 0 k) = fA m c (ix1 k) := by
  have e : (V m c main_v1 : Vec Ideal S1x2048 .f32) = shapeCast S1x2048 (fA m c) (by decide) := by
    dsimp only [V, W1, hostOps0]; after_results; rfl
  rw [e]
  refine shapeCast_apply _ _ _ _ ?_
  rw [Shape.rowMajor_val_one, Shape.rowMajor_val_two]
  show k.val = 0 * 2048 + k.val
  omega

theorem iblk0_apply (c : Dev nD) (t : Fin cfg0.N) (r : Fin 8) (a : Fin 256) :
    (iblk (F := Ideal) m c 0 t : Vec Ideal S8x256 .f32) (ix2 r a) = xA m c (ix2 (rowOf t r) (colI t a)) := by
  obtain ⟨e0, e1, -, -, -, -, -, -, -, -, -, -⟩ := idx_facts t
  unfold iblk
  rw [View.read_apply]
  show V m c main_arg0 (((cfg0.win 0).blk t).view.emb (ix2 r a)) = _
  rw [V_arg0]
  refine congrArg (xA m c) (funext fun ax => Fin.ext ?_)
  match ax with
  | ⟨0, _⟩ => show win0_0.index t (0 : Fin 2) * 8 + 1 * r.val = 8 * (t.val / 64) + r.val; omega
  | ⟨1, _⟩ => show win0_0.index t (1 : Fin 2) * 256 + 1 * a.val = 256 * (t.val / 8 % 8) + a.val; omega
theorem iblk1_apply (c : Dev nD) (t : Fin cfg0.N) (r : Fin 8) (a : Fin 256) :
    (iblk (F := Ideal) m c 1 t : Vec Ideal S8x256 .f32) (ix2 r a) = xA m c (ix2 (rowOf t r) (colJ t a)) := by
  obtain ⟨-, -, e0, e1, -, -, -, -, -, -, -, -⟩ := idx_facts t
  unfold iblk
  rw [View.read_apply]
  show V m c main_arg0 (((cfg0.win 1).blk t).view.emb (ix2 r a)) = _
  rw [V_arg0]
  refine congrArg (xA m c) (funext fun ax => Fin.ext ?_)
  match ax with
  | ⟨0, _⟩ => show win0_1.index t (0 : Fin 2) * 8 + 1 * r.val = 8 * (t.val / 64) + r.val; omega
  | ⟨1, _⟩ => show win0_1.index t (1 : Fin 2) * 256 + 1 * a.val = 256 * (t.val % 8) + a.val; omega
theorem iblk2_apply (c : Dev nD) (t : Fin cfg0.N) (r : Fin 8) (a : Fin 256) :
    (iblk (F := Ideal) m c 2 t : Vec Ideal S8x256 .i32) (ix2 r a) = tA m c (ix2 (rowOf t r) (colI t a)) := by
  obtain ⟨-, -, -, -, e0, e1, -, -, -, -, -, -⟩ := idx_facts t
  unfold iblk
  rw [View.read_apply]
  show V m c main_arg1 (((cfg0.win 2).blk t).view.emb (ix2 r a)) = _
  rw [V_arg1]
  refine congrArg (tA m c) (funext fun ax => Fin.ext ?_)
  match ax with
  | ⟨0, _⟩ => show win0_2.index t (0 : Fin 2) * 8 + 1 * r.val = 8 * (t.val / 64) + r.val; omega
  | ⟨1, _⟩ => show win0_2.index t (1 : Fin 2) * 256 + 1 * a.val = 256 * (t.val / 8 % 8) + a.val; omega
theorem iblk3_apply (c : Dev nD) (t : Fin cfg0.N) (r : Fin 8) (a : Fin 256) :
    (iblk (F := Ideal) m c 3 t : Vec Ideal S8x256 .i32) (ix2 r a) = tA m c (ix2 (rowOf t r) (colJ t a)) := by
  obtain ⟨-, -, -, -, -, -, e0, e1, -, -, -, -⟩ := idx_facts t
  unfold iblk
  rw [View.read_apply]
  show V m c main_arg1 (((cfg0.win 3).blk t).view.emb (ix2 r a)) = _
  rw [V_arg1]
  refine congrArg (tA m c) (funext fun ax => Fin.ext ?_)
  match ax with
  | ⟨0, _⟩ => show win0_3.index t (0 : Fin 2) * 8 + 1 * r.val = 8 * (t.val / 64) + r.val; omega
  | ⟨1, _⟩ => show win0_3.index t (1 : Fin 2) * 256 + 1 * a.val = 256 * (t.val % 8) + a.val; omega
theorem iblk4_apply (c : Dev nD) (t : Fin cfg0.N) (a : Fin 256) :
    (iblk (F := Ideal) m c 4 t : Vec Ideal S256x1 .f32) (ix2 a 0) = fA m c (ix1 (colI t a)) := by
  obtain ⟨-, -, -, -, -, -, -, -, e0, e1, -, -⟩ := idx_facts t
  unfold iblk
  rw [View.read_apply]
  show V m c main_v0 (((cfg0.win 4).blk t).view.emb (ix2 a 0)) = _
  have hi : ((cfg0.win 4).blk t).view.emb (ix2 a 0) = (ix2 (colI t a) 0 : S2048x1.Idx) := by
    funext ax; apply Fin.ext
    match ax with
    | ⟨0, _⟩ => show win0_4.index t (0 : Fin 2) * 256 + 1 * a.val = 256 * (t.val / 8 % 8) + a.val; omega
    | ⟨1, _⟩ => show win0_4.index t (1 : Fin 2) * 1 + 1 * 0 = 0; omega
  rw [hi]
  exact V_v0_apply m c (colI t a)
theorem iblk5_apply (c : Dev nD) (t : Fin cfg0.N) (a : Fin 256) :
    (iblk (F := Ideal) m c 5 t : Vec Ideal S1x256 .f32) (ix2 0 a) = fA m c (ix1 (colJ t a)) := by
  obtain ⟨-, -, -, -, -, -, -, -, -, -, e0, e1⟩ := idx_facts t
  unfold iblk
  rw [View.read_apply]
  show V m c main_v1 (((cfg0.win 5).blk t).view.emb (ix2 0 a)) = _
  have hi : ((cfg0.win 5).blk t).view.emb (ix2 0 a) = (ix2 0 (colJ t a) : S1x2048.Idx) := by
    funext ax; apply Fin.ext
    match ax with
    | ⟨0, _⟩ => show win0_5.index t (0 : Fin 2) * 1 + 1 * 0 = 0; omega
    | ⟨1, _⟩ => show win0_5.index t (1 : Fin 2) * 256 + 1 * a.val = 256 * (t.val % 8) + a.val; omega
  rw [hi]
  exact V_v1_apply m c (colJ t a)

end Cert.KernelIdeal.Pairwise

end
-- ==== Proof.KI.Accum.lean ====
/-
  The accumulator in closed form. After the last point of a batch block (point 64*bb + 63) the accumulator's row
  r holds batch row 8*bb + r's whole double sum of the pairwise term: the 64 tiles (i, j) partition the
  2048 x 2048 pairs (a, c), and a sum over the extended reals may be regrouped freely.
-/
import proofs.«124505_j43963285241920_1_alg».proof.Proof.KI.StepValue
import proofs.«124505_j43963285241920_1_alg».proof.Proof.KI.Blocks
import Mathlib.Algebra.BigOperators.Fin
import Mathlib.Data.Fintype.BigOperators
import Mathlib.Algebra.BigOperators.Group.Finset.Sigma
import Mathlib.Logic.Equiv.Fin.Basic

set_option maxRecDepth 16384

noncomputable section

open scoped BigOperators

namespace Cert.KernelIdeal.Pairwise

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## Regrouping a double sum over 2048 x 2048 by 8 x 8 tiles of 256 x 256 -/

/-- A sum over 2048 indices, split as 8 tiles of 256: index 256*i + a. -/
theorem sum_tiles {M : Type*} [AddCommMonoid M] (h : Fin 2048 → M) :
    ∑ A : Fin 2048, h A = ∑ i : Fin 8, ∑ a : Fin 256, h ⟨256 * i.val + a.val, by omega⟩ := by
  rw [← Fintype.sum_prod_type' (f := fun (i : Fin 8) (a : Fin 256) => h ⟨256 * i.val + a.val, by omega⟩)]
  refine (Fintype.sum_equiv (finProdFinEquiv (m := 8) (n := 256)) _ _ (fun x => ?_)).symm
  refine congrArg h (Fin.ext ?_)
  show 256 * x.1.val + x.2.val = x.2.val + 256 * x.1.val
  omega

/-- A sum over the 64 positions k of a batch block, split by the tile coordinates i = k / 8, j = k % 8. -/
theorem sum_positions {M : Type*} [AddCommMonoid M] (H : Fin 8 → Fin 8 → M) :
    ∑ k ∈ Finset.range 64, H ⟨k / 8 % 8, by omega⟩ ⟨k % 8, by omega⟩ = ∑ i : Fin 8, ∑ j : Fin 8, H i j := by
  rw [Finset.sum_range (fun k => H ⟨k / 8 % 8, by omega⟩ ⟨k % 8, by omega⟩),
    ← Fintype.sum_prod_type' (f := H)]
  refine (Fintype.sum_equiv (finProdFinEquiv (m := 8) (n := 8)) _ _ (fun x => ?_)).symm
  have h1 : (x.2.val + 8 * x.1.val) / 8 % 8 = x.1.val := by omega
  have h2 : (x.2.val + 8 * x.1.val) % 8 = x.2.val := by omega
  show H x.1 x.2 = H ⟨(x.2.val + 8 * x.1.val) / 8 % 8, _⟩ ⟨(x.2.val + 8 * x.1.val) % 8, _⟩
  congr 1 <;> exact Fin.ext (by simp [h1, h2])

/-- The 64 tiles (i, j) of 256 x 256 pairs partition the 2048 x 2048 pairs. -/
theorem sum_regroup {M : Type*} [AddCommMonoid M] (f : Fin 2048 → Fin 2048 → M) :
    ∑ k ∈ Finset.range 64, ∑ a : Fin 256, ∑ c : Fin 256,
        f ⟨256 * (k / 8 % 8) + a.val, by omega⟩ ⟨256 * (k % 8) + c.val, by omega⟩
      = ∑ A : Fin 2048, ∑ C : Fin 2048, f A C := by
  rw [sum_positions (fun i j => ∑ a : Fin 256, ∑ c : Fin 256,
        f ⟨256 * i.val + a.val, by omega⟩ ⟨256 * j.val + c.val, by omega⟩),
    sum_tiles (fun A => ∑ C : Fin 2048, f A C)]
  refine Finset.sum_congr rfl (fun i _ => ?_)
  rw [Finset.sum_comm]
  refine Finset.sum_congr rfl (fun a _ => ?_)
  exact (sum_tiles (fun C => f _ C)).symm

variable (m : (ℓ : Loc nD τ sig) → Buf (Elt Ideal) ℓ)

/-! ## One point's tile sum in terms of the specification's term -/

/-- Over the six blocks of point `t`, the tile's term at local (r, a, c) is the specification's term at batch row
    `rowOf t r` and labels `colI t a`, `colJ t c`: each block entry is the array's entry at the global index. -/
theorem tileTerm_blocks (c : Dev nD) (t : Fin cfg0.N) (r : Fin 8) (a b : Fin 256) :
    tileTerm (iblk (F := Ideal) m c 0 t : Vec Ideal S8x256 .f32) (iblk (F := Ideal) m c 1 t : Vec Ideal S8x256 .f32)
        (iblk (F := Ideal) m c 2 t : Vec Ideal S8x256 .i32) (iblk (F := Ideal) m c 3 t : Vec Ideal S8x256 .i32)
        (iblk (F := Ideal) m c 4 t : Vec Ideal S256x1 .f32) (iblk (F := Ideal) m c 5 t : Vec Ideal S1x256 .f32) r a b
      = Cert.RankSpec.term (xA m c) (tA m c) (fA m c) (rowOf t r) (colI t a) (colJ t b) := by
  unfold tileTerm Cert.RankSpec.term Cert.RankSpec.sc Cert.RankSpec.pos Cert.RankSpec.ratio
  rw [iblk0_apply m c t r a, iblk1_apply m c t r b, iblk2_apply m c t r a, iblk3_apply m c t r b,
    iblk4_apply m c t a, iblk5_apply m c t b]

/-- The whole double sum of the term over the tile of position `k` of a batch block, for batch row `b`. -/
def tileSum (c : Dev nD) (b : Fin 16) (k : ℕ) : EReal :=
  ∑ a : Fin 256, ∑ a' : Fin 256,
    Cert.RankSpec.term (xA m c) (tA m c) (fA m c) b ⟨256 * (k / 8 % 8) + a.val, by omega⟩ ⟨256 * (k % 8) + a'.val, by omega⟩

/-- The update at point 64*bb + k adds the tile sum of position k to row r. -/
theorem stepAt_apply (c : Dev nD) (bb : Fin 2) (r : Fin 8) (k : ℕ) (hk : k < 64) (h : 64 * bb.val + k < cfg0.N)
    (acc : Vec Ideal S8x1 .f32) :
    stepAt (F := Ideal) m c ⟨64 * bb.val + k, h⟩ acc (ix2 r 0)
      = acc (ix2 r 0) + tileSum m c ⟨8 * bb.val + r.val, by omega⟩ k := by
  unfold stepAt
  rw [step_apply]
  refine congrArg (fun z => acc (ix2 r 0) + z) ?_
  unfold tileSum
  refine Finset.sum_congr rfl (fun a _ => Finset.sum_congr rfl (fun a' _ => ?_))
  rw [tileTerm_blocks m c ⟨64 * bb.val + k, h⟩ r a a']
  have e1 : rowOf ⟨64 * bb.val + k, h⟩ r = ⟨8 * bb.val + r.val, by omega⟩ :=
    Fin.ext (by show 8 * ((64 * bb.val + k) / 64) + r.val = 8 * bb.val + r.val; omega)
  have e2 : colI ⟨64 * bb.val + k, h⟩ a = ⟨256 * (k / 8 % 8) + a.val, by omega⟩ :=
    Fin.ext (by show 256 * ((64 * bb.val + k) / 8 % 8) + a.val = 256 * (k / 8 % 8) + a.val; omega)
  have e3 : colJ ⟨64 * bb.val + k, h⟩ a' = ⟨256 * (k % 8) + a'.val, by omega⟩ :=
    Fin.ext (by show 256 * ((64 * bb.val + k) % 8) + a'.val = 256 * (k % 8) + a'.val; omega)
  rw [e1, e2, e3]

/-! ## The accumulator after position k of a batch block: the first k + 1 tile sums -/

theorem acc_prefix (c : Dev nD) (bb : Fin 2) (r : Fin 8) :
    ∀ (k : ℕ) (hk : k < 64) (h : 64 * bb.val + k < cfg0.N),
      accAt (F := Ideal) m c (64 * bb.val + k) h (ix2 r 0)
        = ∑ k' ∈ Finset.range (k + 1), tileSum m c ⟨8 * bb.val + r.val, by omega⟩ k' := by
  intro k
  induction k with
  | zero =>
    intro hk h
    have hr := accAt_reset (F := Ideal) m c ⟨64 * bb.val + 0, h⟩ (by show (64 * bb.val + 0) % 64 = 0; omega)
    rw [show accAt (F := Ideal) m c (64 * bb.val + 0) h = _ from hr, stepAt_apply m c bb r 0 hk h, acc0_apply,
      zero_add, Finset.sum_range_one]
  | succ n ih =>
    intro hk h
    have h' : 64 * bb.val + n < cfg0.N := Nat.lt_of_succ_lt h
    have hc := accAt_cont (F := Ideal) m c ⟨64 * bb.val + (n + 1), h⟩ (by show ¬ (64 * bb.val + (n + 1)) % 64 = 0; omega)
    rw [show accAt (F := Ideal) m c (64 * bb.val + (n + 1)) h = _ from hc, stepAt_apply m c bb r (n + 1) hk h,
      Finset.sum_range_succ _ (n + 1)]
    refine congrArg (fun z => z + tileSum m c ⟨8 * bb.val + r.val, by omega⟩ (n + 1)) ?_
    exact ih (by omega) h'

theorem acc_last (c : Dev nD) (bb : Fin 2) (r : Fin 8) :
    accAt (F := Ideal) m c (64 * bb.val + 63) (by rw [show cfg0.N = 128 from N_0]; omega) (ix2 r 0)
      = Cert.RankSpec.rowTotal (xA m c) (tA m c) (fA m c) ⟨8 * bb.val + r.val, by omega⟩ := by
  rw [acc_prefix m c bb r 63 (by omega)]
  unfold tileSum Cert.RankSpec.rowTotal
  exact sum_regroup (fun A C => Cert.RankSpec.term (xA m c) (tA m c) (fA m c) ⟨8 * bb.val + r.val, by omega⟩ A C)

end Cert.KernelIdeal.Pairwise

end
-- ==== Proof.KI.Result.lean ====
/-
  The program's result at the extended reals: the sum of the result array's sixteen entries, each a batch row's
  double sum, divided by sixteen — the loss.
-/
import proofs.«124505_j43963285241920_1_alg».proof.Proof.KI.Exit
import proofs.«124505_j43963285241920_1_alg».proof.Proof.KI.Accum
import Idealize.ShloMosaic.Lib.StableHlo.Run
import Idealize.ShloMosaic.PureOps.Ideal.Laws
import Idealize.ShloMosaic.Lib.Pipeline.Value
import Idealize.ShloMosaic.Lib.ValueIdx
import Mathlib.Algebra.BigOperators.Fin

set_option maxRecDepth 16384

noncomputable section

open scoped BigOperators

namespace Cert.KernelIdeal.Pairwise

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The result window's index map, decided once over the grid: the block of point t is block row t / 64 of the
    one block column. -/
private theorem out_index : ∀ t : Fin cfg0.N, win0_6.index t (0 : Fin 2) = t.val / 64 ∧ win0_6.index t (1 : Fin 2) = 0 :=
  (by decide +kernel : ∀ t : Fin grid0.N, win0_6.index t (0 : Fin 2) = t.val / 64 ∧ win0_6.index t (1 : Fin 2) = 0)

/-- The sixteen rows' double sums as one 16x1 array: entry (p, 0) is row p's. -/
private def rowTotals (c : Dev nD) : Vec Ideal S16x1 .f32 :=
  fun i => Cert.RankSpec.rowTotal (xA m c) (tA m c) (fA m c) (i 0)

/-- The accumulator after the last point of a batch block, at a position known only by an equation. -/
private theorem acc_flush (c : Dev nD) (n : ℕ) (hn : n < cfg0.N) (bb : Fin 2) (hb : n = 64 * bb.val + 63) (r : Fin 8) :
    accAt (F := Ideal) m c n hn (ix2 r 0)
      = Cert.RankSpec.rowTotal (xA m c) (tA m c) (fA m c) ⟨8 * bb.val + r.val, by omega⟩ := by
  subst hb
  exact acc_last m c bb r

/-- At a flushing point t (t % 64 = 63) the accumulator's local row y is the array of row totals at any index
    whose row is 8 * (t / 64) + y. -/
private theorem flushed_elem (c : Dev nD) (t : Fin cfg0.N) (h63 : t.val % 64 = 63) (y : S8x1.Idx) (i : S16x1.Idx)
    (hi : (i 0).val = 8 * (t.val / 64) + (y 0).val) :
    accAt (F := Ideal) m c t.val t.isLt y = rowTotals m c i := by
  have hN := N128 t
  obtain ⟨r, q, rfl⟩ : ∃ (r : Fin 8) (q : Fin 1), y = ix2 r q := ⟨y 0, y 1, eq_ix2 y⟩
  obtain rfl : q = 0 := Subsingleton.elim _ _
  rw [acc_flush m c t.val t.isLt ⟨t.val / 64, by omega⟩ (by show t.val = 64 * (t.val / 64) + 63; omega) r]
  unfold rowTotals
  exact congrArg (Cert.RankSpec.rowTotal (xA m c) (tA m c) (fA m c)) (Fin.ext hi.symm)

/-- What a flushing point writes back is its block of the array of row totals. -/
private theorem flushed_eq (c : Dev nD) (t : Fin cfg0.N) (hf : (cfg0.win 6).flush t = true) :
    (dats m 0 c).flushed 6 t = ((cfg0.win 6).blk t).view.read (Elt Ideal) (rowTotals m c) := by
  have h63 : t.val % 64 = 63 := (flush0_6 t).mp hf
  have hN := N128 t
  obtain ⟨e0, e1⟩ := out_index t
  show (cfg0.win 6).cut (grid0.coords t) ((dats m 0 c).after 6 t) = _
  rw [after6]
  funext y
  show accAt (F := Ideal) m c t.val t.isLt ((cfg0.win 6).xinj (grid0.coords t) y) = rowTotals m c (((cfg0.win 6).blk t).view.emb y)
  refine flushed_elem m c t h63 _ _ ?_
  show win0_6.index t (0 : Fin 2) * 8 + 1 * (y 0).val = 8 * (t.val / 64) + (y 0).val
  rw [e0]; omega

/-- An index of the array is in point t's block iff each coordinate is in the block's range on its axis. -/
private theorem mem_blk (t : Fin cfg0.N) (i : S16x1.Idx) :
    i ∈ ((cfg0.win 6).blk t).view.set ↔ ∀ a : Fin 2, win0_6.index t a * S8x1.size a ≤ (i a).val ∧ (i a).val < win0_6.index t a * S8x1.size a + S8x1.size a := by
  show i ∈ ((View.whole main_v2).slice (win0_6.rect t)).set ↔ _
  rw [View.set_slice_whole, Rect.mem_set_unit]
  exact Iff.rfl

/-- Every index of the array is in a flushing point's block: row p is in the block of the last point of batch
    block p / 8. -/
private theorem covered (i : S16x1.Idx) :
    ∃ t : Fin cfg0.N, (cfg0.win 6).flush t = true ∧ i ∈ ((cfg0.win 6).blk t).view.set := by
  have hi0 : (i 0).val < 16 := (i 0).isLt
  have hi1 : (i 1).val < 1 := (i 1).isLt
  have hN : cfg0.N = 128 := N_0
  let t : Fin cfg0.N := ⟨64 * ((i 0).val / 8) + 63, by rw [hN]; omega⟩
  have ht : t.val = 64 * ((i 0).val / 8) + 63 := rfl
  obtain ⟨e0, e1⟩ := out_index t
  refine ⟨t, (flush0_6 t).mpr (by rw [ht]; omega), ?_⟩
  rw [mem_blk]
  intro a
  match a with
  | ⟨0, _⟩ => show win0_6.index t (0 : Fin 2) * 8 ≤ (i 0).val ∧ (i 0).val < win0_6.index t (0 : Fin 2) * 8 + 8; rw [e0, ht]; omega
  | ⟨1, _⟩ => show win0_6.index t (1 : Fin 2) * 1 ≤ (i 1).val ∧ (i 1).val < win0_6.index t (1 : Fin 2) * 1 + 1; rw [e1]; omega

/-- So the result array ends as the array of row totals. -/
private theorem outArr_eq (c : Dev nD) : outArr (F := Ideal) m c = rowTotals m c :=
  (dats m 0 c).arrAt_eq_of_cover 6 (rowTotals m c) (flushed_eq m c) covered

/-- The result array's entry for batch row `p` is that row's double sum: block p / 8 of the array is what the
    last point of that batch block wrote back. -/
theorem outArr_apply (c : Dev nD) (p : Fin 16) :
    outArr (F := Ideal) m c (ix2 p 0) = Cert.RankSpec.rowTotal (xA m c) (tA m c) (fA m c) p := by
  rw [outArr_eq]
  rfl

theorem kernel_result (c : Dev nD) :
    resultOf (F := Ideal) m c = fun _ => Cert.RankSpec.loss (xA m c) (tA m c) (fA m c) := by
  show StableHlo.after hostOps1 (W2 m c) (Proc.devRef .tc main_v4) = _
  after_results
  have e2 : W2 (F := Ideal) m c (Proc.devRef .tc main_v2) = outArr m c := by
    unfold W2; exact Function.update_self _ _ _
  rw [e2]
  funext j
  simp only [Host.divf, Host.reduceAdd, Ideal.hostReduceAdd_def, Ideal.hostDivf_def]
  rw [Ideal.hostReduceAdd_total reducesTo_S16x1_S_d0_1 (fun b => b.elim0)]
  rw [sum_idx2 (outArr (F := Ideal) m c)]
  simp only [Fin.sum_univ_one, outArr_apply]
  show Ideal.div (Ideal.ofBits .f32 0x00000000#32 + ∑ p : Fin 16, Cert.RankSpec.rowTotal (xA m c) (tA m c) (fA m c) p)
      (Ideal.ofBits .f32 0x41800000#32) = _
  rw [Ideal.ofBits_zero_f32, zero_add]
  rfl

end Cert.KernelIdeal.Pairwise

end
-- ==== Proof.Ref.lean ====
/-
  The reference's result is the loss: read index by index, its sixty host operations compute the pairwise term at
  every (b, a, c), sum it over all of them from zero, and divide by sixteen. Its logistic is spelt
  1 / (1 + exp (-x)), which at the extended reals is the logistic function itself.
-/
import proofs.«124505_j43963285241920_1_alg».proof.Proof.Gen.ReferenceIdeal.Read
import proofs.«124505_j43963285241920_1_alg».proof.Proof.Spec
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-! ## A rank-3 index set is the product of its three coordinate ranges -/

/-- An index of rank 3 is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The two words -/

/-- The single-precision word 0x3F800000 is the number one. -/
theorem ofBits_one_f32 : Ideal.ofBits .f32 0x3F800000#32 = 1 := by
  simp [Ideal.ofBits, Ideal.ieee]
  rw [← EReal.coe_mul]
  norm_num

/-- 1 / (1 + exp (-x)), with both ones spelt as the word, is the logistic function. -/
theorem logistic_expansion (x : EReal) :
    Ideal.div (Ideal.ofBits .f32 0x3F800000#32) (Ideal.ofBits .f32 0x3F800000#32 + Ideal.exp (-x)) = Ideal.logistic x := by
  rw [ofBits_one_f32]
  rfl

/-! ## The two-axis stages at an index -/

section Stages

variable (x0 : (⟨S16x2048, .f32⟩ : BufTy).Contents (Elt Ideal)) (x1 : (⟨S16x2048, .i32⟩ : BufTy).Contents (Elt Ideal))
  (x2 : (⟨S2048, .f32⟩ : BufTy).Contents (Elt Ideal))

/-- Stages 0 to 5: the logistic of the score, spelt 1 / (1 + exp (-x)). -/
theorem v5_at (b : Fin 16) (a : Fin 2048) :
    val_main_v5 (F := Ideal) x0 (ix2 b a) = Cert.RankSpec.sc x0 b a := by
  rw [val_main_v5_apply, val_main_v4_apply, val_main_cst_0_apply, val_main_v3_apply, val_main_v2_apply,
    val_main_cst_apply, val_main_v1_apply, val_main_v0_apply]
  simp only [Ideal.hostDivf_def, Ideal.addf_def, Ideal.hostUnary_exp_def, Ideal.hostNegf_def, Ideal.negf_def,
    Ideal.ofBits_def]
  exact logistic_expansion _

/-- Stage 6: the label read as a number. -/
theorem v6_at (b : Fin 16) (a : Fin 2048) :
    val_main_v6 (F := Ideal) x1 (ix2 b a) = Cert.RankSpec.pos x1 b a := rfl

/-- Stages 7, 8: one (the word) minus the label. -/
theorem v8_at (b : Fin 16) (c : Fin 2048) :
    val_main_v8 (F := Ideal) x1 (ix2 b c) = Ideal.ofBits .f32 0x3F800000#32 - Cert.RankSpec.pos x1 b c := by
  rw [val_main_v8_apply, val_main_v7_apply, val_main_cst_1_apply, v6_at]
  rfl

/-- Stages 9 to 19: the frequency ratio; the column a is broadcast along the rows and the row c along the columns. -/
theorem v19_at (a c : Fin 2048) :
    val_main_v19 (F := Ideal) x2 (ix2 a c) = Cert.RankSpec.ratio x2 a c := by
  have e9 : idx_main_v9 (idx_main_v11 (ix2 a c)) = ix1 a := funext fun d => by match d with | ⟨0, _⟩ => rfl
  have e10 : idx_main_v10 (idx_main_v12 (ix2 a c)) = ix1 c := funext fun d => by match d with | ⟨0, _⟩ => rfl
  have e14 : idx_main_v14 (idx_main_v16 (ix2 a c)) = ix1 a := funext fun d => by match d with | ⟨0, _⟩ => rfl
  have e15 : idx_main_v15 (idx_main_v17 (ix2 a c)) = ix1 c := funext fun d => by match d with | ⟨0, _⟩ => rfl
  rw [val_main_v19_apply, val_main_v13_apply, val_main_v11_apply, val_main_v9_apply, val_main_v12_apply,
    val_main_v10_apply, val_main_v18_apply, val_main_v16_apply, val_main_v14_apply, val_main_v17_apply,
    val_main_v15_apply, e9, e10, e14, e15]
  rfl

/-! ## The three-axis stages at an index -/

/-- Stages 20 to 24: the difference of the two logistics, s_a along axis 1 and s_c along axis 2. -/
theorem v24_at (b : Fin 16) (a c : Fin 2048) :
    val_main_v24 (F := Ideal) x0 (ix3 b a c) = Cert.RankSpec.sc x0 b a - Cert.RankSpec.sc x0 b c := by
  have e20 : idx_main_v20 (idx_main_v22 (ix3 b a c)) = ix2 b a :=
    funext fun d => by match d with | ⟨0, _⟩ => rfl | ⟨1, _⟩ => rfl
  have e21 : idx_main_v21 (idx_main_v23 (ix3 b a c)) = ix2 b c :=
    funext fun d => by match d with | ⟨0, _⟩ => rfl | ⟨1, _⟩ => rfl
  rw [val_main_v24_apply, val_main_v22_apply, val_main_v20_apply, val_main_v23_apply, val_main_v21_apply, e20, e21,
    v5_at, v5_at]
  rfl

/-- Stages 25 to 29: the product of the two labels. -/
theorem v29_at (b : Fin 16) (a c : Fin 2048) :
    val_main_v29 (F := Ideal) x1 (ix3 b a c) = Cert.RankSpec.pos x1 b a * Cert.RankSpec.pos x1 b c := by
  have e25 : idx_main_v25 (idx_main_v27 (ix3 b a c)) = ix2 b a :=
    funext fun d => by match d with | ⟨0, _⟩ => rfl | ⟨1, _⟩ => rfl
  have e26 : idx_main_v26 (idx_main_v28 (ix3 b a c)) = ix2 b c :=
    funext fun d => by match d with | ⟨0, _⟩ => rfl | ⟨1, _⟩ => rfl
  rw [val_main_v29_apply, val_main_v27_apply, val_main_v25_apply, val_main_v28_apply, val_main_v26_apply, e25, e26,
    v6_at, v6_at]
  rfl

/-- Stages 30 to 34: the label a times one minus the label c. -/
theorem v34_at (b : Fin 16) (a c : Fin 2048) :
    val_main_v34 (F := Ideal) x1 (ix3 b a c)
      = Cert.RankSpec.pos x1 b a * (Ideal.ofBits .f32 0x3F800000#32 - Cert.RankSpec.pos x1 b c) := by
  have e30 : idx_main_v30 (idx_main_v32 (ix3 b a c)) = ix2 b a :=
    funext fun d => by match d with | ⟨0, _⟩ => rfl | ⟨1, _⟩ => rfl
  have e31 : idx_main_v31 (idx_main_v33 (ix3 b a c)) = ix2 b c :=
    funext fun d => by match d with | ⟨0, _⟩ => rfl | ⟨1, _⟩ => rfl
  rw [val_main_v34_apply, val_main_v32_apply, val_main_v30_apply, val_main_v33_apply, val_main_v31_apply, e30, e31,
    v6_at, v8_at]
  rfl

/-- Stages 35, 36: the ratio, the same for every batch row. -/
theorem v36_at (b : Fin 16) (a c : Fin 2048) :
    val_main_v36 (F := Ideal) x2 (ix3 b a c) = Cert.RankSpec.ratio x2 a c := by
  have e35 : idx_main_v35 (idx_main_v36 (ix3 b a c)) = ix2 a c :=
    funext fun d => by match d with | ⟨0, _⟩ => rfl | ⟨1, _⟩ => rfl
  rw [val_main_v36_apply, val_main_v35_apply, e35, v19_at]

/-- Stages 37 to 46: the pairwise term; each relu is the maximum with the zero word, which is zero. -/
theorem v46_at (b : Fin 16) (a c : Fin 2048) :
    val_main_v46 (F := Ideal) x0 x1 x2 (ix3 b a c) = Cert.RankSpec.term x0 x1 x2 b a c := by
  rw [val_main_v46_apply, val_main_v39_apply, val_main_v38_apply, val_main_v37_apply, val_main_call0_v0_apply,
    val_main_call0_cst_apply, val_main_v45_apply, val_main_v44_apply, val_main_v43_apply, val_main_cst_3_apply,
    val_main_v42_apply, val_main_v41_apply, val_main_v40_apply, val_main_cst_2_apply, val_main_call1_v0_apply,
    val_main_call1_cst_apply, v36_at, v24_at, v29_at, v34_at]
  simp only [Ideal.addf_def, Ideal.mulf_def, Ideal.maximumf_def, Ideal.subf_def, Ideal.ofBits_def,
    Ideal.ofBits_zero_f32]
  rfl

end Stages

/-! ## The result -/

theorem ref_value (x0 : (⟨S16x2048, .f32⟩ : BufTy).Contents (Elt Ideal)) (x1 : (⟨S16x2048, .i32⟩ : BufTy).Contents (Elt Ideal))
    (x2 : (⟨S2048, .f32⟩ : BufTy).Contents (Elt Ideal)) :
    val_main_v48 (F := Ideal) x0 x1 x2 = fun _ => Cert.RankSpec.loss x0 x1 x2 := by
  funext i
  rw [val_main_v48_apply, val_main_v47_apply, val_main_cst_4_apply, val_main_cst_5_apply, sum_idx3]
  simp only [v46_at, Ideal.hostDivf_def, Ideal.ofBits_def, Ideal.ofBits_zero_f32, zero_add]
  rfl

end Cert.ReferenceIdeal.RefValue

end
-- ==== Proof.lean ====
/-
  The certificate of the pairwise ranking loss: a kernel that tiles the (batch, label, label) triple sum over a
  2 x 8 x 8 grid, accumulating each batch block's double sum in a resident 8x1 block, against one whole sum.

  Both programs compute the same term at every (b, a, c) — the logistic scores' difference scaled by the
  frequency ratio, clamped at zero, under the labels' masks — and differ only in how the sum over the
  16 x 2048 x 2048 triples is grouped. Over the extended reals addition is commutative and associative, so every
  grouping gives the same sum; no other law is used, and the precondition is never opened. The word-level
  program and its idealization are one text (the idealizing pass rewrote nothing), so the frame of each is the
  same run read at its own instance, and `preserves` has no conjunct.
-/
import proofs.«124505_j43963285241920_1_alg».proof.Defs
import proofs.«124505_j43963285241920_1_alg».proof.Proof.Gen.Kernel
import proofs.«124505_j43963285241920_1_alg».proof.Proof.Gen.KernelIdeal
import proofs.«124505_j43963285241920_1_alg».proof.Proof.Gen.ReferenceIdeal
import proofs.«124505_j43963285241920_1_alg».proof.Proof.Gen.ReferenceIdeal.Run
import proofs.«124505_j43963285241920_1_alg».proof.Proof.Gen.ReferenceIdeal.Read
import proofs.«124505_j43963285241920_1_alg».proof.Proof.Gen.Pre_finite_inputs
import proofs.«124505_j43963285241920_1_alg».proof.Proof.K.Launch
import proofs.«124505_j43963285241920_1_alg».proof.Proof.KI.Launch
import proofs.«124505_j43963285241920_1_alg».proof.Proof.KI.Result
import proofs.«124505_j43963285241920_1_alg».proof.Proof.Ref

noncomputable section

namespace Cert.Proof

open Idealize.ShloMosaic Idealize.ShloMosaic.TcCoe Idealize.SL.Sem

/-- The word-level kernel's run, its arguments read at the end. -/
theorem frame_k : Cert.frame_Kernel := fun m ρ _ =>
  (θ_run Cert.Kernel.defs _ _).mono (fun _ h c => (h c).2) (Cert.Kernel.Pairwise.run_main (F := Bits) m ρ)

/-- The idealized kernel's run, likewise. -/
theorem frame_ki : Cert.frame_KernelIdeal := fun m ρ _ =>
  (θ_run Cert.KernelIdeal.defs _ _).mono (fun _ h c => (h c).2) (Cert.KernelIdeal.Pairwise.run_main (F := Ideal) m ρ)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealizing pass rewrote no operation. -/
theorem preserves : Cert.preserves_Kernel_KernelIdeal := trivial

/-- Both programs end with the loss of the argument arrays: the kernel's accumulated blocks summed and divided by
    sixteen, the reference's one sum divided by sixteen. -/
theorem algebraic : Cert.algebraic_KernelIdeal_ReferenceIdeal := by
  intro m ρ m' ρ' _ hagree
  refine ⟨fun c => fun _ => Cert.RankSpec.loss (Cert.KernelIdeal.Pairwise.xA m c) (Cert.KernelIdeal.Pairwise.tA m c) (Cert.KernelIdeal.Pairwise.fA m c), ?_, ?_⟩
  · exact (θ_run Cert.KernelIdeal.defs _ _).mono
      (fun _ h c => ⟨(h c).1.trans (Cert.KernelIdeal.Pairwise.kernel_result m c), (h c).2⟩)
      (Cert.KernelIdeal.Pairwise.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v48_eq, Cert.ReferenceIdeal.RefValue.ref_value,
      (hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
